-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v4) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x512x28x28 : Shape := ⟨4, ![64, 512, 28, 28]⟩
abbrev S32x512 : Shape := ⟨2, ![32, 512]⟩
abbrev S512x32 : Shape := ⟨2, ![512, 32]⟩
abbrev S_ : Shape := ⟨0, ![]⟩

class Facts : Prop where
  bcast_S_S64x512x28x28 : S_.BroadcastsInDim S64x512x28x28 (![] : Fin 0 → Fin S64x512x28x28.rank)
  reducesTo_S64x512x28x28_S_d0_1_2_3 : S64x512x28x28.ReducesTo [0, 1, 2, 3] S_
  h_S_ : 0 < S_.numel
  bcast_S_S32x512 : S_.BroadcastsInDim S32x512 (![] : Fin 0 → Fin S32x512.rank)
  reducesTo_S32x512_S_d0_1 : S32x512.ReducesTo [0, 1] S_
  bcast_S_S512x32 : S_.BroadcastsInDim S512x32 (![] : Fin 0 → Fin S512x32.rank)
  reducesTo_S512x32_S_d0_1 : S512x32.ReducesTo [0, 1] S_

variable [Facts]

def fn {F : FTy → Type} [FloatOps F] (main_arg0 : FVec F S64x512x28x28 .f32) (main_arg1 : FVec F S32x512 .f32) (main_arg2 : FVec F S512x32 .f32) : IVec S_ 1 :=
  let main_v0 : FVec F S64x512x28x28 .f32 := Host.absf main_arg0
  let main_cst : FVec F S_ .f32 := constant S_ .f32 0x7F800000#32
  let main_v1 : FVec F S64x512x28x28 .f32 := broadcastInDim S64x512x28x28 ![] bcast_S_S64x512x28x28 main_cst
  let main_v2 : IVec S64x512x28x28 1 := cmpf .olt main_v0 main_v1
  let main_c : IVec S_ 1 := constantI S_ 1 1#1
  let main_v3 : IVec S_ 1 := (fun x v => Host.reduce IntOp.andi x v reducesTo_S64x512x28x28_S_d0_1_2_3 h_S_) main_v2 main_c
  let main_v4 : FVec F S32x512 .f32 := Host.absf main_arg1
  let main_cst_0 : FVec F S_ .f32 := constant S_ .f32 0x7F800000#32
  let main_v5 : FVec F S32x512 .f32 := broadcastInDim S32x512 ![] bcast_S_S32x512 main_cst_0
  let main_v6 : IVec S32x512 1 := cmpf .olt main_v4 main_v5
  let main_c_1 : IVec S_ 1 := constantI S_ 1 1#1
  let main_v7 : IVec S_ 1 := (fun x v => Host.reduce IntOp.andi x v reducesTo_S32x512_S_d0_1 h_S_) main_v6 main_c_1
  let main_v8 : IVec S_ 1 := andi main_v3 main_v7
  let main_v9 : FVec F S512x32 .f32 := Host.absf main_arg2
  let main_cst_2 : FVec F S_ .f32 := constant S_ .f32 0x7F800000#32
  let main_v10 : FVec F S512x32 .f32 := broadcastInDim S512x32 ![] bcast_S_S512x32 main_cst_2
  let main_v11 : IVec S512x32 1 := cmpf .olt main_v9 main_v10
  let main_c_3 : IVec S_ 1 := constantI S_ 1 1#1
  let main_v12 : IVec S_ 1 := (fun x v => Host.reduce IntOp.andi x v reducesTo_S512x32_S_d0_1 h_S_) main_v11 main_c_3
  let main_v13 : IVec S_ 1 := andi main_v8 main_v12
  main_v13
-- ==== Kernel.lean ====
abbrev S64x512x28x28 : Shape := ⟨4, ![64, 512, 28, 28]⟩
abbrev S32x512 : Shape := ⟨2, ![32, 512]⟩
abbrev S512x32 : Shape := ⟨2, ![512, 32]⟩
abbrev S64x28x28x512 : Shape := ⟨4, ![64, 28, 28, 512]⟩
abbrev S4x28x28x512 : Shape := ⟨4, ![4, 28, 28, 512]⟩
abbrev S4x512 : Shape := ⟨2, ![4, 512]⟩
abbrev S4x32 : Shape := ⟨2, ![4, 32]⟩
abbrev S4x1x1x512 : Shape := ⟨4, ![4, 1, 1, 512]⟩

abbrev nBuf : Space → Nat
  | .hbm => 8
  | .vmem => 6
  | .smem => 0
  | _ => 0

abbrev bufTy : (tb : Table) → Fin (tcTables nBuf tb) → BufTy
  | .hbm, ⟨0, _⟩ => ⟨S64x512x28x28, .f32⟩
  | .hbm, ⟨1, _⟩ => ⟨S32x512, .f32⟩
  | .hbm, ⟨2, _⟩ => ⟨S512x32, .f32⟩
  | .hbm, ⟨3, _⟩ => ⟨S64x28x28x512, .f32⟩
  | .hbm, ⟨4, _⟩ => ⟨S512x32, .f32⟩
  | .hbm, ⟨5, _⟩ => ⟨S32x512, .f32⟩
  | .hbm, ⟨6, _⟩ => ⟨S64x28x28x512, .f32⟩
  | .hbm, ⟨7, _⟩ => ⟨S64x512x28x28, .f32⟩
  | .local _ .vmem, ⟨0, _⟩ => ⟨S4x28x28x512, .f32⟩
  | .local _ .vmem, ⟨1, _⟩ => ⟨S4x28x28x512, .f32⟩
  | .local _ .vmem, ⟨2, _⟩ => ⟨S512x32, .f32⟩
  | .local _ .vmem, ⟨3, _⟩ => ⟨S32x512, .f32⟩
  | .local _ .vmem, ⟨4, _⟩ => ⟨S4x28x28x512, .f32⟩
  | .local _ .vmem, ⟨5, _⟩ => ⟨S4x28x28x512, .f32⟩
  | _, _ => ⟨S64x512x28x28, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![16], ![false]⟩

def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S4x28x28x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x32 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S32x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S4x28x28x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  transposes_S64x512x28x28_S64x28x28x512_0_2_3_1 : S64x512x28x28.Transposes [0, 2, 3, 1] S64x28x28x512
  transposes_S32x512_S512x32_1_0 : S32x512.Transposes [1, 0] S512x32
  transposes_S512x32_S32x512_1_0 : S512x32.Transposes [1, 0] S32x512
  inb_S4x28x28x512_S4x28x28x512_0_0_0_0 : ∀ a, (![0, 0, 0, 0] : Fin 4 → Nat) a + S4x28x28x512.size a ≤ S4x28x28x512.size a
  h_S4x28x28x512 : 0 < S4x28x28x512.numel
  shapeCasts_S4x28x28x512_S4x28x28x512 : S4x28x28x512.ShapeCasts S4x28x28x512
  reduces_S4x28x28x512_S4x512 : S4x28x28x512.Reduces [1, 2] S4x512
  inb_S512x32_S512x32_0_0 : ∀ a, (![0, 0] : Fin 2 → Nat) a + S512x32.size a ≤ S512x32.size a
  h_S512x32 : 0 < S512x32.numel
  shapeCasts_S512x32_S512x32 : S512x32.ShapeCasts S512x32
  inb_S32x512_S32x512_0_0 : ∀ a, (![0, 0] : Fin 2 → Nat) a + S32x512.size a ≤ S32x512.size a
  h_S32x512 : 0 < S32x512.numel
  shapeCasts_S32x512_S32x512 : S32x512.ShapeCasts S32x512
  shapeCasts_S4x512_S4x1x1x512 : S4x512.ShapeCasts S4x1x1x512
  broadcasts_S4x1x1x512_S4x28x28x512 : S4x1x1x512.Broadcasts S4x28x28x512
  transposes_S64x28x28x512_S64x512x28x28_0_3_1_2 : S64x28x28x512.Transposes [0, 3, 1, 2] S64x512x28x28
  dot_S4x512_S512x32_S4x32_1_0_0_1_n_n_wf : DotDims.WF S4x512 S512x32 S4x32 [1] [0] [0] [1] [] []
  dot_S4x32_S32x512_S4x512_1_0_0_1_n_n_wf : DotDims.WF S4x32 S32x512 S4x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4x28x28x512.size a ≤ S64x28x28x512.size a
  hwx0_0 : ∀ i : grid0.Coords, EltTy.bits .f32 = 32 ∨ (Rect.block (s := S64x28x28x512) S4x28x28x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x32.size a ≤ S512x32.size a
  hwx0_1 : ∀ i : grid0.Coords, EltTy.bits .f32 = 32 ∨ (Rect.block (s := S512x32) S512x32.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S32x512.size a ≤ S32x512.size a
  hwx0_2 : ∀ i : grid0.Coords, EltTy.bits .f32 = 32 ∨ (Rect.block (s := S32x512) S32x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S4x28x28x512.size a ≤ S64x28x28x512.size a
  hwx0_3 : ∀ i : grid0.Coords, EltTy.bits .f32 = 32 ∨ (Rect.block (s := S64x28x28x512) S4x28x28x512.size (cc0_transform_3 i) (hinb0_3 i)).WholeWords (EltTy.packing .f32)

variable [Facts₀]

def dot_S4x512_S512x32_S4x32_1_0_0_1_n_n : DotDims S4x512 S512x32 S4x32 where
  lhsContracting := [1]
  rhsContracting := [0]
  lhsNonContracting := [0]
  rhsNonContracting := [1]
  lhsBatch := []
  rhsBatch := []
  wf := dot_S4x512_S512x32_S4x32_1_0_0_1_n_n_wf
def dot_S4x32_S32x512_S4x512_1_0_0_1_n_n : DotDims S4x32 S32x512 S4x512 where
  lhsContracting := [1]
  rhsContracting := [0]
  lhsNonContracting := [0]
  rhsNonContracting := [1]
  lhsBatch := []
  rhsBatch := []
  wf := dot_S4x32_S32x512_S4x512_1_0_0_1_n_n_wf

abbrev win0_0 : Pipeline.Window sig grid0 :=
  Pipeline.Window.ofSpec (Memref.whole main_v0) S4x28x28x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S512x32.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v2) S32x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v3) S4x28x28x512.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S64x512x28x28 : Shape := ⟨4, ![64, 512, 28, 28]⟩
abbrev S32x512 : Shape := ⟨2, ![32, 512]⟩
abbrev S512x32 : Shape := ⟨2, ![512, 32]⟩
abbrev S64x512x784 : Shape := ⟨3, ![64, 512, 784]⟩
abbrev S5x512x784 : Shape := ⟨3, ![5, 512, 784]⟩
abbrev S5x512 : Shape := ⟨2, ![5, 512]⟩
abbrev S5x32 : Shape := ⟨2, ![5, 32]⟩
abbrev S5x512x1 : Shape := ⟨3, ![5, 512, 1]⟩

abbrev nBuf : Space → Nat
  | .hbm => 8
  | .vmem => 6
  | .smem => 0
  | _ => 0

abbrev bufTy : (tb : Table) → Fin (tcTables nBuf tb) → BufTy
  | .hbm, ⟨0, _⟩ => ⟨S64x512x28x28, .f32⟩
  | .hbm, ⟨1, _⟩ => ⟨S32x512, .f32⟩
  | .hbm, ⟨2, _⟩ => ⟨S512x32, .f32⟩
  | .hbm, ⟨3, _⟩ => ⟨S512x32, .f32⟩
  | .hbm, ⟨4, _⟩ => ⟨S32x512, .f32⟩
  | .hbm, ⟨5, _⟩ => ⟨S64x512x784, .f32⟩
  | .hbm, ⟨6, _⟩ => ⟨S64x512x784, .f32⟩
  | .hbm, ⟨7, _⟩ => ⟨S64x512x28x28, .f32⟩
  | .local _ .vmem, ⟨0, _⟩ => ⟨S5x512x784, .f32⟩
  | .local _ .vmem, ⟨1, _⟩ => ⟨S5x512x784, .f32⟩
  | .local _ .vmem, ⟨2, _⟩ => ⟨S512x32, .f32⟩
  | .local _ .vmem, ⟨3, _⟩ => ⟨S32x512, .f32⟩
  | .local _ .vmem, ⟨4, _⟩ => ⟨S5x512x784, .f32⟩
  | .local _ .vmem, ⟨5, _⟩ => ⟨S5x512x784, .f32⟩
  | _, _ => ⟨S64x512x28x28, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![13], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S5x512x784 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x32 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S32x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S5x512x784 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  transposes_S32x512_S512x32_1_0 : S32x512.Transposes [1, 0] S512x32
  transposes_S512x32_S32x512_1_0 : S512x32.Transposes [1, 0] S32x512
  shapeCasts_S64x512x28x28_S64x512x784 : S64x512x28x28.ShapeCasts S64x512x784
  inb_S5x512x784_S5x512x784_0_0_0 : ∀ a, (![0, 0, 0] : Fin 3 → Nat) a + S5x512x784.size a ≤ S5x512x784.size a
  h_S5x512x784 : 0 < S5x512x784.numel
  shapeCasts_S5x512x784_S5x512x784 : S5x512x784.ShapeCasts S5x512x784
  reduces_S5x512x784_S5x512 : S5x512x784.Reduces [2] S5x512
  inb_S512x32_S512x32_0_0 : ∀ a, (![0, 0] : Fin 2 → Nat) a + S512x32.size a ≤ S512x32.size a
  h_S512x32 : 0 < S512x32.numel
  shapeCasts_S512x32_S512x32 : S512x32.ShapeCasts S512x32
  inb_S32x512_S32x512_0_0 : ∀ a, (![0, 0] : Fin 2 → Nat) a + S32x512.size a ≤ S32x512.size a
  h_S32x512 : 0 < S32x512.numel
  shapeCasts_S32x512_S32x512 : S32x512.ShapeCasts S32x512
  shapeCasts_S5x512_S5x512x1 : S5x512.ShapeCasts S5x512x1
  broadcasts_S5x512x1_S5x512x784 : S5x512x1.Broadcasts S5x512x784
  shapeCasts_S64x512x784_S64x512x28x28 : S64x512x784.ShapeCasts S64x512x28x28
  dot_S5x512_S512x32_S5x32_1_0_0_1_n_n_wf : DotDims.WF S5x512 S512x32 S5x32 [1] [0] [0] [1] [] []
  dot_S5x32_S32x512_S5x512_1_0_0_1_n_n_wf : DotDims.WF S5x32 S32x512 S5x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hstart0_0 : ∀ (i : grid0.Coords) a, cc0_transform_0 i a * S5x512x784.size a < S64x512x784.size a
  hwx0_0 : ∀ i : grid0.Coords, EltTy.bits .f32 = 32 ∨ (Rect.unit (s := S64x512x784) (fun a => cc0_transform_0 i a * S5x512x784.size a) (fun a => (Pipeline.Clip.of (cc0_transform_0 i a) (S5x512x784.size a) (S64x512x784.size a)).extent (S5x512x784.size a)) fun a => Pipeline.Clip.inb (Pipeline.Clip.ok_of (hstart0_0 i a))).WholeWords (EltTy.packing .f32)
  hwxs0_0 : ∀ i : grid0.Coords, EltTy.bits .f32 = 32 ∨ (Rect.unit (s := S5x512x784) (fun _ => 0) (fun a => (Pipeline.Clip.of (cc0_transform_0 i a) (S5x512x784.size a) (S64x512x784.size a)).extent (S5x512x784.size a)) fun a => (Nat.zero_add _).trans_le (Pipeline.Clip.extent_le (Pipeline.Clip.ok_of (hstart0_0 i a)))).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x32.size a ≤ S512x32.size a
  hwx0_1 : ∀ i : grid0.Coords, EltTy.bits .f32 = 32 ∨ (Rect.block (s := S512x32) S512x32.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S32x512.size a ≤ S32x512.size a
  hwx0_2 : ∀ i : grid0.Coords, EltTy.bits .f32 = 32 ∨ (Rect.block (s := S32x512) S32x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hstart0_3 : ∀ (i : grid0.Coords) a, cc0_transform_3 i a * S5x512x784.size a < S64x512x784.size a
  hwx0_3 : ∀ i : grid0.Coords, EltTy.bits .f32 = 32 ∨ (Rect.unit (s := S64x512x784) (fun a => cc0_transform_3 i a * S5x512x784.size a) (fun a => (Pipeline.Clip.of (cc0_transform_3 i a) (S5x512x784.size a) (S64x512x784.size a)).extent (S5x512x784.size a)) fun a => Pipeline.Clip.inb (Pipeline.Clip.ok_of (hstart0_3 i a))).WholeWords (EltTy.packing .f32)
  hwxs0_3 : ∀ i : grid0.Coords, EltTy.bits .f32 = 32 ∨ (Rect.unit (s := S5x512x784) (fun _ => 0) (fun a => (Pipeline.Clip.of (cc0_transform_3 i a) (S5x512x784.size a) (S64x512x784.size a)).extent (S5x512x784.size a)) fun a => (Nat.zero_add _).trans_le (Pipeline.Clip.extent_le (Pipeline.Clip.ok_of (hstart0_3 i a)))).WholeWords (EltTy.packing .f32)

variable [Facts₀]

def dot_S5x512_S512x32_S5x32_1_0_0_1_n_n : DotDims S5x512 S512x32 S5x32 where
  lhsContracting := [1]
  rhsContracting := [0]
  lhsNonContracting := [0]
  rhsNonContracting := [1]
  lhsBatch := []
  rhsBatch := []
  wf := dot_S5x512_S512x32_S5x32_1_0_0_1_n_n_wf
def dot_S5x32_S32x512_S5x512_1_0_0_1_n_n : DotDims S5x32 S32x512 S5x512 where
  lhsContracting := [1]
  rhsContracting := [0]
  lhsNonContracting := [0]
  rhsNonContracting := [1]
  lhsBatch := []
  rhsBatch := []
  wf := dot_S5x32_S32x512_S5x512_1_0_0_1_n_n_wf

abbrev win0_0 : Pipeline.Window sig grid0 :=
  Pipeline.Window.ofSpecClip (Memref.whole main_v2) S5x512x784.size cc0_transform_0 reads0_0 false false 2 stage0_0 sem0_0
    hrank0 hreads0_0 hstart0_0 nbuf0_0 (Memref.isWhole_whole _) hwx0_0 hwxs0_0 hstage0_0

abbrev win0_1 : Pipeline.Window sig grid0 :=
  Pipeline.Window.ofSpec (Memref.whole main_v0) S512x32.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S32x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpecClip (Memref.whole main_v3) S5x512x784.size cc0_transform_3 reads0_3 true false 2 stage0_3 sem0_3
    hrank0 hreads0_3 hstart0_3 nbuf0_3 (Memref.isWhole_whole _) hwx0_3 hwxs0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== Proof.SeSpec.lean ====
/-
  The squeeze-and-excitation gate as ONE function over the extended reals, stated once for both programs.

  For one batch row, with channels `c : Fin 512` and a finite spatial index `s : σ`:
    pooled c' = (∑ s, X c' s) · inv            (the spatial mean, `inv` the float literal both programs share)
    hidden j  = max (∑ c', pooled c' · A c' j) 0
    gate c    = logistic (∑ j, hidden j · B j c)
  and the result at (row, c, s) is `X c s · gate c`.  The two programs differ only in how they name the spatial
  index (a pair of coordinates of a 28 × 28 image against one coordinate of its 784 flattened positions), and a
  finite sum does not depend on how its index set is named (`gate_reindex`): addition of extended reals is
  commutative and associative, so no finiteness of the inputs is needed.
-/
import Idealize.ShloMosaic.PureOps.Ideal
import Idealize.ShloMosaic.Lib.ValueIdx

noncomputable section

namespace SeGate

open Idealize.ShloMosaic Idealize.ShloMosaic.ValueIdx

/-- The reciprocal of the number of spatial positions as both programs spell it: one float literal, never evaluated. -/
abbrev invHW : EReal := Ideal.ofBits .f32 0x3AA72F05#32

/-- The zero the hidden layer is clamped at, as both programs spell it. -/
abbrev zeroLit : EReal := Ideal.ofBits .f32 0x00000000#32

/-- The gate of one batch row at channel `c`. -/
def gate {σ : Type} [Fintype σ] (X : Fin 512 → σ → EReal) (A : Fin 512 → Fin 32 → EReal) (B : Fin 32 → Fin 512 → EReal)
    (c : Fin 512) : EReal :=
  Ideal.logistic (∑ j : Fin 32, max (∑ c' : Fin 512, ((∑ s : σ, X c' s) * invHW) * A c' j) zeroLit * B j c)

/-- Renaming the spatial index through a bijection does not change the gate. -/
theorem gate_reindex {σ σ' : Type} [Fintype σ] [Fintype σ'] (e : σ ≃ σ') (X : Fin 512 → σ → EReal) (X' : Fin 512 → σ' → EReal)
    (h : ∀ c s, X' c (e s) = X c s) (A : Fin 512 → Fin 32 → EReal) (B : Fin 32 → Fin 512 → EReal) (c : Fin 512) :
    gate X A B c = gate X' A B c := by
  unfold gate
  have hs : ∀ c', (∑ s : σ, X c' s) = ∑ s : σ', X' c' s := fun c' => by
    rw [← Equiv.sum_comp e (X' c')]
    exact Finset.sum_congr rfl fun s _ => (h c' s).symm
  simp only [hs]

/-- The whole result over the array of shape [64, 512, 28, 28]: entry (b, c, h, w) is the input there times the gate
    of batch row `b` at channel `c`; `w1` is [32, 512] and `w2` is [512, 32], read transposed. -/
def out (x : (⟨4, ![64, 512, 28, 28]⟩ : Shape).Idx → EReal) (w1 : (⟨2, ![32, 512]⟩ : Shape).Idx → EReal)
    (w2 : (⟨2, ![512, 32]⟩ : Shape).Idx → EReal) : (⟨4, ![64, 512, 28, 28]⟩ : Shape).Idx → EReal :=
  fun i => x i * gate (σ := Fin 28 × Fin 28) (fun c' s => x (ix4 (i 0) c' s.1 s.2)) (fun c' j => w1 (ix2 j c'))
    (fun j c => w2 (ix2 c j)) (i 1)

end SeGate

end
-- ==== Proof.KPayload.lean ====
/-
  The kernel body's one store, read at an index of its [4, 28, 28, 512] block at the ideal values: the loaded
  entry times the gate of that batch row (the spatial sum over the two image axes, the two small matrix products
  as plain sums over their contracted index, the clamp at zero, the logistic function).
-/
import proofs.«179622_g2000605780834191_pallasbulk_681_3_alg».proof.Proof.Gen.KernelIdeal.Skeleton
import proofs.«179622_g2000605780834191_pallasbulk_681_3_alg».proof.Proof.SeSpec
import Idealize.ShloMosaic.Lib.ValueIdx
import Idealize.ShloMosaic.Lib.Pipeline.Value
import Idealize.ShloMosaic.PureOps.Ideal.Laws

noncomputable section

namespace Cert.KernelIdeal.Hand

open Idealize.ShloMosaic Idealize.ShloMosaic.ValueIdx Cert.KernelIdeal Cert.KernelIdeal.Gen

/-! ## The sum over the two image axes -/

/-- A sum over the indices of the [4, 28, 28, 512] block that keep the batch row `b` and the channel `c` is the sum
    over the pairs of image coordinates: the map `(h, w) ↦ (b, h, w, c)` is a bijection onto that fibre. -/
theorem reduceAdd_image (hred : (⟨4, ![4, 28, 28, 512]⟩ : Shape).Reduces [1, 2] ⟨2, ![4, 512]⟩)
    (x : (⟨4, ![4, 28, 28, 512]⟩ : Shape).Idx → EReal) (b : Fin 4) (c : Fin 512) :
    Ideal.reduceAdd hred x (ix2 b c) = ∑ s : Fin 28 × Fin 28, x (ix4 b s.1 s.2 c) := by
  unfold Ideal.reduceAdd
  -- the dropped index of (p, q, r, t) is (p, t)
  have hdrop : ∀ (p : Fin 4) (q r : Fin 28) (t : Fin 512), hred.drop (ix4 p q r t) = ix2 p t := fun p q r t =>
    funext fun a => Fin.ext (by
      match a with
      | ⟨0, _⟩ => exact hred.drop_apply_val_of_eq (ix4 p q r t) 0 0
      | ⟨1, _⟩ => exact hred.drop_apply_val_of_eq (ix4 p q r t) 1 3)
  refine Finset.sum_nbij' (fun i => ((i 1 : Fin 28), (i 2 : Fin 28))) (fun s => ix4 b s.1 s.2 c)
    (fun _ _ => Finset.mem_univ _) (fun s _ => ?_) (fun i hi => ?_) (fun s _ => rfl) (fun i hi => ?_)
  · exact Finset.mem_filter.2 ⟨Finset.mem_univ _, hdrop b s.1 s.2 c⟩
  · obtain ⟨p, q, r, t, rfl⟩ : ∃ (p : Fin 4) (q r : Fin 28) (t : Fin 512), i = ix4 p q r t :=
      ⟨i 0, i 1, i 2, i 3, eq_ix4 i⟩
    have h := (hdrop p q r t).symm.trans (Finset.mem_filter.1 hi).2
    have hp : p = b := congrFun h 0
    have ht : t = c := congrFun h 1
    subst hp; subst ht; rfl
  · obtain ⟨p, q, r, t, rfl⟩ : ∃ (p : Fin 4) (q r : Fin 28) (t : Fin 512), i = ix4 p q r t :=
      ⟨i 0, i 1, i 2, i 3, eq_ix4 i⟩
    have h := (hdrop p q r t).symm.trans (Finset.mem_filter.1 hi).2
    have hp : p = b := congrFun h 0
    have ht : t = c := congrFun h 1
    subst hp; subst ht; rfl

/-! ## The two matrix products at an index -/

theorem lhs_d1_0 (i : S4x32.Idx) (q : dot_S4x512_S512x32_S4x32_1_0_0_1_n_n.contr.Idx) :
    (dot_S4x512_S512x32_S4x32_1_0_0_1_n_n.lhsIdx i q 0).val = (i 0).val := by
  unfold DotDims.lhsIdx
  rw [dif_neg (show ¬(0 : Fin S4x512.rank) ∈ dot_S4x512_S512x32_S4x32_1_0_0_1_n_n.lhsBatch by decide),
    dif_pos (show (0 : Fin S4x512.rank) ∈ dot_S4x512_S512x32_S4x32_1_0_0_1_n_n.lhsNonContracting by decide)]
  rfl

theorem lhs_d1_1 (i : S4x32.Idx) (q : dot_S4x512_S512x32_S4x32_1_0_0_1_n_n.contr.Idx) :
    (dot_S4x512_S512x32_S4x32_1_0_0_1_n_n.lhsIdx i q 1).val = (q ⟨0, by decide⟩).val :=
  dot_S4x512_S512x32_S4x32_1_0_0_1_n_n.lhsIdx_val_of_single rfl i q

theorem rhs_d1_0 (i : S4x32.Idx) (q : dot_S4x512_S512x32_S4x32_1_0_0_1_n_n.contr.Idx) :
    (dot_S4x512_S512x32_S4x32_1_0_0_1_n_n.rhsIdx i q 0).val = (q ⟨0, by decide⟩).val :=
  dot_S4x512_S512x32_S4x32_1_0_0_1_n_n.rhsIdx_val_of_single rfl i q

theorem rhs_d1_1 (i : S4x32.Idx) (q : dot_S4x512_S512x32_S4x32_1_0_0_1_n_n.contr.Idx) :
    (dot_S4x512_S512x32_S4x32_1_0_0_1_n_n.rhsIdx i q 1).val = (i 1).val := by
  unfold DotDims.rhsIdx
  rw [dif_neg (show ¬(1 : Fin S512x32.rank) ∈ dot_S4x512_S512x32_S4x32_1_0_0_1_n_n.rhsBatch by decide),
    dif_pos (show (1 : Fin S512x32.rank) ∈ dot_S4x512_S512x32_S4x32_1_0_0_1_n_n.rhsNonContracting by decide)]
  rfl

/-- The first product, [4, 512] by [512, 32] into the zero accumulator: row `b`, column `j` is the sum over the
    512 contracted positions. -/
theorem matmul1_apply (lhs : FVec Ideal S4x512 .f32) (rhs : FVec Ideal S512x32 .f32) (b : Fin 4) (j : Fin 32) :
    matmul dot_S4x512_S512x32_S4x32_1_0_0_1_n_n none lhs rhs (constant (F := Ideal) S4x32 .f32 0x00000000#32) (ix2 b j)
      = ∑ k : Fin 512, lhs (ix2 b k) * rhs (ix2 k j) := by
  refine (Ideal.matmul_constant_zero_apply dot_S4x512_S512x32_S4x32_1_0_0_1_n_n none lhs rhs (ix2 b j)).trans ?_
  rw [← Equiv.sum_comp (contrEquiv1 dot_S4x512_S512x32_S4x32_1_0_0_1_n_n 512 rfl rfl).symm]
  refine Finset.sum_congr rfl fun k _ => ?_
  have hk := contrEquiv1_symm_val dot_S4x512_S512x32_S4x32_1_0_0_1_n_n 512 rfl rfl k
  have el : dot_S4x512_S512x32_S4x32_1_0_0_1_n_n.lhsIdx (ix2 b j)
      ((contrEquiv1 dot_S4x512_S512x32_S4x32_1_0_0_1_n_n 512 rfl rfl).symm k) = ix2 b k :=
    funext fun a => Fin.ext (by
      match a with
      | ⟨0, _⟩ => exact lhs_d1_0 _ _
      | ⟨1, _⟩ => exact (lhs_d1_1 _ _).trans hk)
  have er : dot_S4x512_S512x32_S4x32_1_0_0_1_n_n.rhsIdx (ix2 b j)
      ((contrEquiv1 dot_S4x512_S512x32_S4x32_1_0_0_1_n_n 512 rfl rfl).symm k) = ix2 k j :=
    funext fun a => Fin.ext (by
      match a with
      | ⟨0, _⟩ => exact (rhs_d1_0 _ _).trans hk
      | ⟨1, _⟩ => exact rhs_d1_1 _ _)
  rw [el, er]

theorem lhs_d2_0 (i : S4x512.Idx) (q : dot_S4x32_S32x512_S4x512_1_0_0_1_n_n.contr.Idx) :
    (dot_S4x32_S32x512_S4x512_1_0_0_1_n_n.lhsIdx i q 0).val = (i 0).val := by
  unfold DotDims.lhsIdx
  rw [dif_neg (show ¬(0 : Fin S4x32.rank) ∈ dot_S4x32_S32x512_S4x512_1_0_0_1_n_n.lhsBatch by decide),
    dif_pos (show (0 : Fin S4x32.rank) ∈ dot_S4x32_S32x512_S4x512_1_0_0_1_n_n.lhsNonContracting by decide)]
  rfl

theorem lhs_d2_1 (i : S4x512.Idx) (q : dot_S4x32_S32x512_S4x512_1_0_0_1_n_n.contr.Idx) :
    (dot_S4x32_S32x512_S4x512_1_0_0_1_n_n.lhsIdx i q 1).val = (q ⟨0, by decide⟩).val :=
  dot_S4x32_S32x512_S4x512_1_0_0_1_n_n.lhsIdx_val_of_single rfl i q

theorem rhs_d2_0 (i : S4x512.Idx) (q : dot_S4x32_S32x512_S4x512_1_0_0_1_n_n.contr.Idx) :
    (dot_S4x32_S32x512_S4x512_1_0_0_1_n_n.rhsIdx i q 0).val = (q ⟨0, by decide⟩).val :=
  dot_S4x32_S32x512_S4x512_1_0_0_1_n_n.rhsIdx_val_of_single rfl i q

theorem rhs_d2_1 (i : S4x512.Idx) (q : dot_S4x32_S32x512_S4x512_1_0_0_1_n_n.contr.Idx) :
    (dot_S4x32_S32x512_S4x512_1_0_0_1_n_n.rhsIdx i q 1).val = (i 1).val := by
  unfold DotDims.rhsIdx
  rw [dif_neg (show ¬(1 : Fin S32x512.rank) ∈ dot_S4x32_S32x512_S4x512_1_0_0_1_n_n.rhsBatch by decide),
    dif_pos (show (1 : Fin S32x512.rank) ∈ dot_S4x32_S32x512_S4x512_1_0_0_1_n_n.rhsNonContracting by decide)]
  rfl

/-- The second product, [4, 32] by [32, 512] into the zero accumulator: row `b`, column `c` is the sum over the
    32 contracted positions. -/
theorem matmul2_apply (lhs : FVec Ideal S4x32 .f32) (rhs : FVec Ideal S32x512 .f32) (b : Fin 4) (c : Fin 512) :
    matmul dot_S4x32_S32x512_S4x512_1_0_0_1_n_n none lhs rhs (constant (F := Ideal) S4x512 .f32 0x00000000#32) (ix2 b c)
      = ∑ k : Fin 32, lhs (ix2 b k) * rhs (ix2 k c) := by
  refine (Ideal.matmul_constant_zero_apply dot_S4x32_S32x512_S4x512_1_0_0_1_n_n none lhs rhs (ix2 b c)).trans ?_
  rw [← Equiv.sum_comp (contrEquiv1 dot_S4x32_S32x512_S4x512_1_0_0_1_n_n 32 rfl rfl).symm]
  refine Finset.sum_congr rfl fun k _ => ?_
  have hk := contrEquiv1_symm_val dot_S4x32_S32x512_S4x512_1_0_0_1_n_n 32 rfl rfl k
  have el : dot_S4x32_S32x512_S4x512_1_0_0_1_n_n.lhsIdx (ix2 b c)
      ((contrEquiv1 dot_S4x32_S32x512_S4x512_1_0_0_1_n_n 32 rfl rfl).symm k) = ix2 b k :=
    funext fun a => Fin.ext (by
      match a with
      | ⟨0, _⟩ => exact lhs_d2_0 _ _
      | ⟨1, _⟩ => exact (lhs_d2_1 _ _).trans hk)
  have er : dot_S4x32_S32x512_S4x512_1_0_0_1_n_n.rhsIdx (ix2 b c)
      ((contrEquiv1 dot_S4x32_S32x512_S4x512_1_0_0_1_n_n 32 rfl rfl).symm k) = ix2 k c :=
    funext fun a => Fin.ext (by
      match a with
      | ⟨0, _⟩ => exact (rhs_d2_0 _ _).trans hk
      | ⟨1, _⟩ => exact rhs_d2_1 _ _)
  rw [el, er]

/-! ## The gate's way back to the block: a cast that adds two unit axes, then a broadcast over the image -/

/-- A [4, 512] array cast to [4, 1, 1, 512] and broadcast to [4, 28, 28, 512], read at (b, h, w, c), is the array
    at (b, c): the broadcast reads (b, 0, 0, c), and that has the row-major position of (b, c). -/
theorem cast_broadcast_apply {α : Type} (v : S4x512.Idx → α) (hc : S4x512.ShapeCasts S4x1x1x512)
    (hb : S4x1x1x512.Broadcasts S4x28x28x512) (b : Fin 4) (h w : Fin 28) (c : Fin 512) :
    broadcastTo S4x28x28x512 (shapeCast S4x1x1x512 v hc) hb (ix4 b h w c) = v (ix2 b c) := by
  refine (broadcastTo_apply (shapeCast S4x1x1x512 v hc) hb (ix4 b h w c) (ix4 b 0 0 c) fun a => ?_).trans ?_
  · match a with
    | ⟨0, _⟩ => rfl
    | ⟨1, _⟩ => rfl
    | ⟨2, _⟩ => rfl
    | ⟨3, _⟩ => rfl
  · refine shapeCast_apply v hc (ix4 b 0 0 c) (ix2 b c) ?_
    rw [Shape.rowMajor_val_two, Shape.rowMajor_val_four]
    show b.val * 512 + c.val = ((b.val * 1 + 0) * 1 + 0) * 512 + c.val
    omega

/-! ## The stored value -/

/-- The stored value at (b, h, w, c) of the block. -/
theorem pay_apply (x0 : Vec Ideal S4x28x28x512 .f32) (x1 : Vec Ideal S512x32 .f32) (x2 : Vec Ideal S32x512 .f32)
    (b : Fin 4) (h : Fin 28) (w : Fin 28) (c : Fin 512) :
    k0_pay1 (F := Ideal) x0 x1 x2 (ix4 b h w c)
      = x0 (ix4 b h w c) * SeGate.gate (σ := Fin 28 × Fin 28) (fun c' s => x0 (ix4 b s.1 s.2 c'))
          (fun c' j => x1 (ix2 c' j)) (fun j c'' => x2 (ix2 j c'')) c := by
  unfold k0_pay1
  simp only [shapeCast_self]
  -- the outer product, pointwise
  show x0 (ix4 b h w c) * _ = _
  refine congrArg (x0 (ix4 b h w c) * ·) ?_
  -- the gate comes back from row b, channel c of the [4, 512] array
  refine (cast_broadcast_apply _ _ _ b h w c).trans ?_
  -- the logistic function of the second product
  unfold SeGate.gate
  show Ideal.logistic _ = _
  refine congrArg Ideal.logistic ?_
  refine (matmul2_apply _ _ b c).trans ?_
  refine Finset.sum_congr rfl fun j _ => ?_
  refine congrArg (· * x2 (ix2 j c)) ?_
  -- the clamp at zero of the first product
  show max _ SeGate.zeroLit = _
  refine congrArg (max · SeGate.zeroLit) ?_
  refine (matmul1_apply _ _ b j).trans ?_
  refine Finset.sum_congr rfl fun c' _ => ?_
  refine congrArg (· * x1 (ix2 c' j)) ?_
  -- the spatial sum times the literal
  show Ideal.reduceAdd reduces_S4x28x28x512_S4x512 x0 (ix2 b c') * SeGate.invHW = _
  exact congrArg (· * SeGate.invHW) (reduceAdd_image reduces_S4x28x28x512_S4x512 x0 b c')

end Cert.KernelIdeal.Hand

end
-- ==== Proof.KRun.lean ====
/-
  The kernel's run with its result named, at the ideal values: the transposed input is walked in sixteen blocks of four
  batch rows, each point writes its block of "input times gate", the blocks tile the array, and the transpose after the
  region brings the channels back to the second axis: the result is `SeGate.out` of the three arguments.
-/
import proofs.«179622_g2000605780834191_pallasbulk_681_3_alg».proof.Proof.KPayload
import proofs.«179622_g2000605780834191_pallasbulk_681_3_alg».proof.Proof.Gen.KernelIdeal.Frame
import Idealize.ShloMosaic.Lib.Pipeline.Value
import Idealize.ShloMosaic.Lib.ValueIdx
import Idealize.ShloMosaic.Lib.StableHlo.Run

noncomputable section

namespace Cert.KernelIdeal.Hand

open Idealize.ShloMosaic Idealize.ShloMosaic.TcCoe Idealize.ShloMosaic.ValueIdx
open Cert.KernelIdeal Cert.KernelIdeal.Gen
open Idealize.SL Idealize.SL.Sem

variable (m : (ℓ : Loc nD τ sig) → Buf (Elt Ideal) ℓ) (ρ : Dev nD → PrngReg)

/-! ## The arrays as the region finds them -/

/-- The first argument with its channels moved to the last axis: what the region's first window walks. -/
theorem V_v0 (c : Dev nD) : (V m c main_v0 : S64x28x28x512.Idx → EReal)
    = transpose S64x28x28x512 [0, 2, 3, 1] (m ((c : Thread nD τ).loc main_arg0)) Facts₀.transposes_S64x512x28x28_S64x28x28x512_0_2_3_1 := by
  show StableHlo.after hostOps0 (fun b => m (c, b)) (Proc.devRef .tc main_v0) = _
  after_results

/-- The first weight matrix transposed. -/
theorem V_v1 (c : Dev nD) : (V m c main_v1 : S512x32.Idx → EReal)
    = transpose S512x32 [1, 0] (m ((c : Thread nD τ).loc main_arg1)) Facts₀.transposes_S32x512_S512x32_1_0 := by
  show StableHlo.after hostOps0 (fun b => m (c, b)) (Proc.devRef .tc main_v1) = _
  after_results

/-- The second weight matrix transposed. -/
theorem V_v2 (c : Dev nD) : (V m c main_v2 : S32x512.Idx → EReal)
    = transpose S32x512 [1, 0] (m ((c : Thread nD τ).loc main_arg2)) Facts₀.transposes_S512x32_S32x512_1_0 := by
  show StableHlo.after hostOps0 (fun b => m (c, b)) (Proc.devRef .tc main_v2) = _
  after_results

/-! ## The region's result as one function of the arrays it reads -/

/-- Entry `(r, h, w, ch)` of the region's result: the walked input there times the gate of batch row `r` at channel `ch`,
    the gate read off the walked input's row `r` and the two transposed weight matrices. -/
def gT (X : S64x28x28x512.Idx → EReal) (A : S512x32.Idx → EReal) (B : S32x512.Idx → EReal) : S64x28x28x512.Idx → EReal :=
  fun i => X i * SeGate.gate (σ := Fin 28 × Fin 28) (fun c' s => X (ix4 (i 0) s.1 s.2 c')) (fun c' j => A (ix2 c' j))
    (fun j c'' => B (ix2 j c'')) (i 3)

theorem zeros4 : (![0, 0, 0, 0] : Fin 4 → Nat) = fun _ => 0 := funext fun a => by fin_cases a <;> rfl
theorem zeros2 : (![0, 0] : Fin 2 → Nat) = fun _ => 0 := funext fun a => by fin_cases a <;> rfl

/-- The printed index maps over the grid: the walked input and the result move together, one block of four batch rows a
    point, whole on the other axes; the weight matrices are fetched whole. -/
theorem idx_facts : ∀ t : Fin cfg0.N,
    win0_0.index t (0 : Fin 4) = t.val ∧ win0_0.index t (1 : Fin 4) = 0 ∧ win0_0.index t (2 : Fin 4) = 0 ∧ win0_0.index t (3 : Fin 4) = 0
    ∧ win0_3.index t (0 : Fin 4) = t.val ∧ win0_3.index t (1 : Fin 4) = 0 ∧ win0_3.index t (2 : Fin 4) = 0 ∧ win0_3.index t (3 : Fin 4) = 0
    ∧ win0_1.index t (0 : Fin 2) = 0 ∧ win0_1.index t (1 : Fin 2) = 0
    ∧ win0_2.index t (0 : Fin 2) = 0 ∧ win0_2.index t (1 : Fin 2) = 0 :=
  (by decide +kernel : ∀ t : Fin grid0.N, _)

theorem point_lt (t : Fin cfg0.N) : t.val < 16 := lt_of_lt_of_eq t.isLt N_0

/-- Where an element of the result's block at point `t` sits in the array: batch row `4 t + b`, the other coordinates its own. -/
theorem emb3_eq (t : Fin cfg0.N) (b : Fin 4) (h w : Fin 28) (ch : Fin 512) :
    ((cfg0.win 3).blk t).view.emb (ix4 b h w ch)
      = (ix4 (⟨t.val * 4 + b.val, by have := point_lt t; omega⟩ : Fin 64) h w ch : S64x28x28x512.Idx) := by
  obtain ⟨-, -, -, -, e0, e1, e2, e3, -⟩ := idx_facts t
  funext a; apply Fin.ext
  match a with
  | ⟨0, _⟩ => show win0_3.index t (0 : Fin 4) * 4 + 1 * b.val = t.val * 4 + b.val; omega
  | ⟨1, _⟩ => show win0_3.index t (1 : Fin 4) * 28 + 1 * h.val = h.val; omega
  | ⟨2, _⟩ => show win0_3.index t (2 : Fin 4) * 28 + 1 * w.val = w.val; omega
  | ⟨3, _⟩ => show win0_3.index t (3 : Fin 4) * 512 + 1 * ch.val = ch.val; omega

/-- The same for the walked input's block: the two windows move together. -/
theorem emb0_eq (t : Fin cfg0.N) (b : Fin 4) (h w : Fin 28) (ch : Fin 512) :
    ((cfg0.win 0).blk t).view.emb (ix4 b h w ch)
      = (ix4 (⟨t.val * 4 + b.val, by have := point_lt t; omega⟩ : Fin 64) h w ch : S64x28x28x512.Idx) := by
  obtain ⟨e0, e1, e2, e3, -⟩ := idx_facts t
  funext a; apply Fin.ext
  match a with
  | ⟨0, _⟩ => show win0_0.index t (0 : Fin 4) * 4 + 1 * b.val = t.val * 4 + b.val; omega
  | ⟨1, _⟩ => show win0_0.index t (1 : Fin 4) * 28 + 1 * h.val = h.val; omega
  | ⟨2, _⟩ => show win0_0.index t (2 : Fin 4) * 28 + 1 * w.val = w.val; omega
  | ⟨3, _⟩ => show win0_0.index t (3 : Fin 4) * 512 + 1 * ch.val = ch.val; omega

/-- Block `t` of the walked input at an element: the array at batch row `4 t + b`. -/
theorem blk0_read (c : Dev nD) (t : Fin cfg0.N) (b : Fin 4) (h w : Fin 28) (ch : Fin 512) :
    iblk m c 0 t (ix4 b h w ch)
      = (V m c main_v0 : S64x28x28x512.Idx → EReal) (ix4 (⟨t.val * 4 + b.val, by have := point_lt t; omega⟩ : Fin 64) h w ch) := by
  show (V m c main_v0 : S64x28x28x512.Idx → EReal) (((cfg0.win 0).blk t).view.emb (ix4 b h w ch)) = _
  rw [emb0_eq]

/-- The first transposed weight matrix is fetched whole. -/
theorem blk1_read (c : Dev nD) (t : Fin cfg0.N) (p : Fin 512) (q : Fin 32) :
    iblk m c 1 t (ix2 p q) = (V m c main_v1 : S512x32.Idx → EReal) (ix2 p q) := by
  show (V m c main_v1 : S512x32.Idx → EReal) (((cfg0.win 1).blk t).view.emb (ix2 p q)) = _
  refine congrArg (V m c main_v1 : S512x32.Idx → EReal) ?_
  obtain ⟨-, -, -, -, -, -, -, -, e0, e1, -⟩ := idx_facts t
  funext a; apply Fin.ext
  match a with
  | ⟨0, _⟩ => show win0_1.index t (0 : Fin 2) * 512 + 1 * p.val = p.val; omega
  | ⟨1, _⟩ => show win0_1.index t (1 : Fin 2) * 32 + 1 * q.val = q.val; omega

/-- The second transposed weight matrix is fetched whole. -/
theorem blk2_read (c : Dev nD) (t : Fin cfg0.N) (p : Fin 32) (q : Fin 512) :
    iblk m c 2 t (ix2 p q) = (V m c main_v2 : S32x512.Idx → EReal) (ix2 p q) := by
  show (V m c main_v2 : S32x512.Idx → EReal) (((cfg0.win 2).blk t).view.emb (ix2 p q)) = _
  refine congrArg (V m c main_v2 : S32x512.Idx → EReal) ?_
  obtain ⟨-, -, -, -, -, -, -, -, -, -, e0, e1⟩ := idx_facts t
  funext a; apply Fin.ext
  match a with
  | ⟨0, _⟩ => show win0_2.index t (0 : Fin 2) * 32 + 1 * p.val = p.val; omega
  | ⟨1, _⟩ => show win0_2.index t (1 : Fin 2) * 512 + 1 * q.val = q.val; omega

/-- What point `t` stores at an element of its block is the result function at that element's place in the array. -/
theorem stored_at (c : Dev nD) (t : Fin cfg0.N) (b : Fin 4) (h w : Fin 28) (ch : Fin 512) :
    k0_pay1 (F := Ideal) (iblk m c 0 t) (iblk m c 1 t) (iblk m c 2 t) (ix4 b h w ch)
      = gT (V m c main_v0) (V m c main_v1) (V m c main_v2) (((cfg0.win 3).blk t).view.emb (ix4 b h w ch)) := by
  refine (pay_apply (iblk m c 0 t) (iblk m c 1 t) (iblk m c 2 t) b h w ch).trans ?_
  rw [emb3_eq]
  simp only [blk0_read, blk1_read, blk2_read]
  rfl

/-- WHAT POINT `t` WRITES BACK is block `t` of the result function of the arrays as the region finds them. -/
theorem flushed_eq (c : Dev nD) (t : Fin cfg0.N) :
    (dats m 0 c).flushed 3 t
      = ((cfg0.win 3).blk t).view.read (Elt Ideal) (gT (V m c main_v0) (V m c main_v1) (V m c main_v2)) := by
  show (cfg0.win 3).cut (grid0.coords t) ((dats m 0 c).after 3 t) = _
  rw [after0_3]
  unfold out0_3
  rw [View.canon_unit_zero zeros4]
  simp only [View.ld_unit_zero (S := S4x28x28x512) zeros4, View.ld_unit_zero (S := S512x32) zeros2,
    View.ld_unit_zero (S := S32x512) zeros2]
  funext j
  have hj : j = (ix4 (j 0) (j 1) (j 2) (j 3) : S4x28x28x512.Idx) := eq_ix4 (n0 := 4) (n1 := 28) (n2 := 28) (n3 := 512) j
  rw [hj]
  exact stored_at m c t (j 0) (j 1) (j 2) (j 3)

/-- An index of the array is in point `t`'s block iff each coordinate is in the block's range on its axis. -/
theorem mem_blk (t : Fin cfg0.N) (i : S64x28x28x512.Idx) :
    i ∈ ((cfg0.win 3).blk t).view.set ↔ ∀ a : Fin 4, win0_3.index t a * S4x28x28x512.size a ≤ (i a).val
      ∧ (i a).val < win0_3.index t a * S4x28x28x512.size a + S4x28x28x512.size a := by
  show i ∈ ((View.whole main_v3).slice (win0_3.rect t)).set ↔ _
  rw [View.set_slice_whole, Rect.mem_set_unit]
  exact Iff.rfl

/-- The blocks tile the array: batch row `r` is in the block of point `r / 4`. -/
theorem cover (i : S64x28x28x512.Idx) :
    ∃ t : Fin cfg0.N, (cfg0.win 3).flush t = true ∧ i ∈ ((cfg0.win 3).blk t).view.set := by
  have hi0 : (i 0).val < 64 := (i 0).isLt
  have hi1 : (i 1).val < 28 := (i 1).isLt
  have hi2 : (i 2).val < 28 := (i 2).isLt
  have hi3 : (i 3).val < 512 := (i 3).isLt
  obtain ⟨t, ht⟩ : ∃ t : Fin cfg0.N, t.val = (i 0).val / 4 :=
    ⟨⟨(i 0).val / 4, lt_of_lt_of_eq (by omega : (i 0).val / 4 < 16) N_0.symm⟩, rfl⟩
  obtain ⟨-, -, -, -, e0, e1, e2, e3, -⟩ := idx_facts t
  refine ⟨t, flush0_3 t, ?_⟩
  rw [mem_blk]
  intro a
  match a with
  | ⟨0, _⟩ => show win0_3.index t (0 : Fin 4) * 4 ≤ (i 0).val ∧ (i 0).val < win0_3.index t (0 : Fin 4) * 4 + 4; omega
  | ⟨1, _⟩ => show win0_3.index t (1 : Fin 4) * 28 ≤ (i 1).val ∧ (i 1).val < win0_3.index t (1 : Fin 4) * 28 + 28; omega
  | ⟨2, _⟩ => show win0_3.index t (2 : Fin 4) * 28 ≤ (i 2).val ∧ (i 2).val < win0_3.index t (2 : Fin 4) * 28 + 28; omega
  | ⟨3, _⟩ => show win0_3.index t (3 : Fin 4) * 512 ≤ (i 3).val ∧ (i 3).val < win0_3.index t (3 : Fin 4) * 512 + 512; omega

/-- THE RESULT ARRAY after the region: the result function of the arrays as the region finds them. -/
theorem final (c : Dev nD) :
    (dats m 0 c).arrAt 3 cfg0.N = gT (V m c main_v0) (V m c main_v1) (V m c main_v2) :=
  (dats m 0 c).arrAt_eq_of_cover 3 (gT (V m c main_v0) (V m c main_v1) (V m c main_v2)) (fun t _ => flushed_eq m c t) cover

/-! ## The transpose after the region, and the result named -/

/-- The result array as @main leaves it: the region's result with the channels moved back to the second axis. -/
theorem tail_eq (c : Dev nD) :
    (Pipeline.afterTail₀ cfgs (dats m) 0 (V0 m) [hostOps1] c main_v4 : S64x512x28x28.Idx → EReal)
      = transpose S64x512x28x28 [0, 3, 1, 2] (gT (V m c main_v0) (V m c main_v1) (V m c main_v2))
          Facts₀.transposes_S64x28x28x512_S64x512x28x28_0_3_1_2 := by
  unfold Pipeline.afterTail₀
  show StableHlo.after hostOps1 _ (Proc.devRef .tc main_v4) = _
  after_results
  exact congrArg (fun x : S64x28x28x512.Idx → EReal => transpose S64x512x28x28 [0, 3, 1, 2] x
      Facts₀.transposes_S64x28x28x512_S64x512x28x28_0_3_1_2)
    ((Pipeline.withArrays_arr spec0 launch0.win.arr_inj c _ _ 3).trans (final m c))

/-- The three transposes before the region and the one after it cancel, at an index given by its coordinates: the
    result function of the transposed arguments, transposed back, is `SeGate.out` of the arguments there. -/
theorem out_at (x : S64x512x28x28.Idx → EReal) (w1 : S32x512.Idx → EReal) (w2 : S512x32.Idx → EReal)
    (r : Fin 64) (ch : Fin 512) (h w : Fin 28) :
    transpose S64x512x28x28 [0, 3, 1, 2]
        (gT (transpose S64x28x28x512 [0, 2, 3, 1] x Facts₀.transposes_S64x512x28x28_S64x28x28x512_0_2_3_1)
          (transpose S512x32 [1, 0] w1 Facts₀.transposes_S32x512_S512x32_1_0)
          (transpose S32x512 [1, 0] w2 Facts₀.transposes_S512x32_S32x512_1_0))
        Facts₀.transposes_S64x28x28x512_S64x512x28x28_0_3_1_2 (ix4 r ch h w)
      = SeGate.out x w1 w2 (ix4 r ch h w) := by
  refine (transpose_apply _ _ _ (ix4 r ch h w : S64x512x28x28.Idx) (ix4 r h w ch : S64x28x28x512.Idx)
    (fun b => by fin_cases b <;> rfl)).trans ?_
  have hX : ∀ (r' : Fin 64) (h' w' : Fin 28) (c' : Fin 512),
      transpose S64x28x28x512 [0, 2, 3, 1] x Facts₀.transposes_S64x512x28x28_S64x28x28x512_0_2_3_1 (ix4 r' h' w' c')
        = x (ix4 r' c' h' w') := fun r' h' w' c' =>
    transpose_apply _ _ _ (ix4 r' h' w' c' : S64x28x28x512.Idx) (ix4 r' c' h' w' : S64x512x28x28.Idx)
      (fun b => by fin_cases b <;> rfl)
  have hA : ∀ (c' : Fin 512) (j : Fin 32),
      transpose S512x32 [1, 0] w1 Facts₀.transposes_S32x512_S512x32_1_0 (ix2 c' j) = w1 (ix2 j c') := fun c' j =>
    transpose_apply _ _ _ (ix2 c' j : S512x32.Idx) (ix2 j c' : S32x512.Idx) (fun b => by fin_cases b <;> rfl)
  have hB : ∀ (j : Fin 32) (c' : Fin 512),
      transpose S32x512 [1, 0] w2 Facts₀.transposes_S512x32_S32x512_1_0 (ix2 j c') = w2 (ix2 c' j) := fun j c' =>
    transpose_apply _ _ _ (ix2 j c' : S32x512.Idx) (ix2 c' j : S512x32.Idx) (fun b => by fin_cases b <;> rfl)
  show transpose S64x28x28x512 [0, 2, 3, 1] x _ (ix4 r h w ch)
      * SeGate.gate (σ := Fin 28 × Fin 28)
          (fun c' s => transpose S64x28x28x512 [0, 2, 3, 1] x _ (ix4 r s.1 s.2 c'))
          (fun c' j => transpose S512x32 [1, 0] w1 _ (ix2 c' j))
          (fun j c'' => transpose S32x512 [1, 0] w2 _ (ix2 j c'')) ch
    = x (ix4 r ch h w) * SeGate.gate (σ := Fin 28 × Fin 28) (fun c' s => x (ix4 r c' s.1 s.2)) (fun c' j => w1 (ix2 j c'))
          (fun j c'' => w2 (ix2 c'' j)) ch
  simp only [hX, hA, hB]

/-- The same as an equation of arrays. -/
theorem out_eq (x : S64x512x28x28.Idx → EReal) (w1 : S32x512.Idx → EReal) (w2 : S512x32.Idx → EReal) :
    transpose S64x512x28x28 [0, 3, 1, 2]
        (gT (transpose S64x28x28x512 [0, 2, 3, 1] x Facts₀.transposes_S64x512x28x28_S64x28x28x512_0_2_3_1)
          (transpose S512x32 [1, 0] w1 Facts₀.transposes_S32x512_S512x32_1_0)
          (transpose S32x512 [1, 0] w2 Facts₀.transposes_S512x32_S32x512_1_0))
        Facts₀.transposes_S64x28x28x512_S64x512x28x28_0_3_1_2
      = SeGate.out x w1 w2 := by
  funext i
  have hi : i = (ix4 (i 0) (i 1) (i 2) (i 3) : S64x512x28x28.Idx) := eq_ix4 (n0 := 64) (n1 := 512) (n2 := 28) (n3 := 28) i
  rw [hi]
  exact out_at x w1 w2 (i 0) (i 1) (i 2) (i 3)

/-- Every weakly fair execution of the kernel's @main terminates with the result array at `SeGate.out` of the arguments
    and the arguments unchanged. -/
theorem run_value : θ_run defs (onTc (τ := τ) (main (F := Ideal))) ⟨m, fun _ => 0, ρ⟩
    (fun r => ∀ c : Dev Cert.KernelIdeal.nD,
      r.2.mem ((c.tc : Thread Cert.KernelIdeal.nD Cert.KernelIdeal.τ).loc Cert.KernelIdeal.main_v4)
        = SeGate.out (m ((c.tc : Thread Cert.KernelIdeal.nD Cert.KernelIdeal.τ).loc Cert.KernelIdeal.main_arg0)) (m ((c.tc : Thread Cert.KernelIdeal.nD Cert.KernelIdeal.τ).loc Cert.KernelIdeal.main_arg1))
            (m ((c.tc : Thread Cert.KernelIdeal.nD Cert.KernelIdeal.τ).loc Cert.KernelIdeal.main_arg2))
      ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)) := by
  refine (θ_run defs _ _).mono (fun r h c => ⟨?_, ?_, ?_, ?_⟩) (run_main m ρ)
  · refine ((h c).2 main_v4 (Pipeline.mem_restRefs_of main_v4 (by decide) (by decide))).trans ?_
    refine (tail_eq m c).trans ?_
    rw [V_v0, V_v1, V_v2]
    exact out_eq _ _ _
  · exact ((h c).2 main_arg0 (Pipeline.mem_restRefs_of main_arg0 (by decide) (by decide))).trans (W_main_arg0 m (dats m) c)
  · exact ((h c).2 main_arg1 (Pipeline.mem_restRefs_of main_arg1 (by decide) (by decide))).trans (W_main_arg1 m (dats m) c)
  · exact ((h c).2 main_arg2 (Pipeline.mem_restRefs_of main_arg2 (by decide) (by decide))).trans (W_main_arg2 m (dats m) c)

end Cert.KernelIdeal.Hand

end
-- ==== Proof.RDats.lean ====
/-
  The proof data of the reference's one pipeline, at the ideal values.

  The reference views the input as [64, 512, 784] and walks the batch axis in blocks of 5, thirteen of them; the last
  block holds rows 60‥63 and one row past the array's end. What a staging buffer holds past the array's end is named by
  nobody: the input's buffer is stated on the rows the fetch moved (the block of the array there), the result's on the
  rows the write-back moves, where it is the block of `outFlat` — the input times the gate of its batch row.
-/
import proofs.«179622_g2000605780834191_pallasbulk_681_3_alg».proof.Proof.Gen.ReferenceIdeal.Frame
import proofs.«179622_g2000605780834191_pallasbulk_681_3_alg».proof.Proof.SeSpec
import Idealize.ShloMosaic.Lib.ValueIdx
import Idealize.ShloMosaic.Lib.Pipeline.Value

noncomputable section

namespace Cert.ReferenceIdeal.Hand

open Idealize.ShloMosaic Idealize.ShloMosaic.TcCoe Idealize.ShloMosaic.ValueIdx Cert.ReferenceIdeal Cert.ReferenceIdeal.Gen
open Idealize.SL Idealize.SL.RA Idealize.SL.BI Idealize.SL.Sem
open Idealize.ShloMosaic.Pipeline (Dat Cfg Window)

variable (m : (ℓ : Loc nD τ sig) → Buf (Elt Ideal) ℓ)

/-- The result over the flattened array [64, 512, 784]: entry (b, c, k) is the input there times the gate of batch row
    `b` at channel `c`; `A` is [512, 32] and `B` is [32, 512] (the weights as the region finds them, transposed). -/
def gflat (X : S64x512x784.Idx → EReal) (A : S512x32.Idx → EReal) (B : S32x512.Idx → EReal) : S64x512x784.Idx → EReal :=
  fun i => X i * SeGate.gate (σ := Fin 784) (fun c' s => X (ix3 (i 0) c' s)) (fun c' j => A (ix2 c' j))
    (fun j c'' => B (ix2 j c'')) (i 1)

/-- That function of the three arrays the region is entered with. -/
def outFlat (c : Dev nD) : S64x512x784.Idx → EReal :=
  gflat (V m c main_v2 : S64x512x784.Idx → EReal) (V m c main_v0 : S512x32.Idx → EReal) (V m c main_v1 : S32x512.Idx → EReal)

/-- The part inside the array of the result's block at point `t`, read off `outFlat`. -/
def outBlk (c : Dev nD) (t : Fin cfg0.N) : ((cfg0.win 3).xblock (cfg0.grid.coords t)).Idx → Elt Ideal (cfg0.win 3).elt :=
  ((cfg0.win 3).blk t).view.read (Elt Ideal) (outFlat m c)

/-- The proof data: the arrays as the region finds them; after the body the input's buffer at its block (on the rows
    inside the array; zero past them, which nothing reads), the two weights' buffers at theirs, the result's at the
    block of `outFlat` (likewise). -/
def dats (_ : Fin 1) (c : Dev nD) : Dat τ (Elt Ideal) Unit ℕ (UR sig nD τ) ℕ cfg0 c where
  A w := V m c (Pipeline.arrRef spec0 w)
  after w t := match w with
    | ⟨0, _⟩ => (cfg0.win 0).fill (cfg0.grid.coords t) (fun _ => (0 : EReal)) (iblk m c 0 t)
    | ⟨1, _⟩ => iblk m c 1 t
    | ⟨2, _⟩ => iblk m c 2 t
    | ⟨3, _⟩ => (cfg0.win 3).fill (cfg0.grid.coords t) (fun _ => (0 : EReal)) (outBlk m c t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) :
    (dats m 0 c).after 0 t = (cfg0.win 0).fill (cfg0.grid.coords t) (fun _ => (0 : EReal)) (iblk m c 0 t) := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) :
    (dats m 0 c).after 3 t = (cfg0.win 3).fill (cfg0.grid.coords t) (fun _ => (0 : EReal)) (outBlk m c t) := by dsimp only [dats]

/-- What the write-back at point `t` writes: the block of `outFlat` there. -/
theorem flushed_3 (c : Dev nD) (t : Fin cfg0.N) : (dats m 0 c).flushed 3 t = outBlk m c t := by
  show (cfg0.win 3).cut (cfg0.grid.coords t) ((dats m 0 c).after 3 t) = _
  rw [after0_3]; exact (cfg0.win 3).cut_fill _ _ _

end Cert.ReferenceIdeal.Hand

end
-- ==== Proof.RPayload.lean ====
/-
  The reference body's one store, read at an index of its [5, 512, 784] block at the ideal values: the entry of the
  second load times the gate of that batch row computed from the first load (the spatial sum over the flattened
  axis, the two small matrix products as plain sums over their contracted index, the clamp at zero, the logistic
  function). The value at batch row `b` reads only row `b` of the loaded block.
-/
import proofs.«179622_g2000605780834191_pallasbulk_681_3_alg».proof.Proof.Gen.ReferenceIdeal.Skeleton
import proofs.«179622_g2000605780834191_pallasbulk_681_3_alg».proof.Proof.SeSpec
import Idealize.ShloMosaic.Lib.ValueIdx
import Idealize.ShloMosaic.Lib.Pipeline.Value
import Idealize.ShloMosaic.PureOps.Ideal.Laws

noncomputable section

namespace Cert.ReferenceIdeal.Hand

open Idealize.ShloMosaic Idealize.ShloMosaic.ValueIdx Cert.ReferenceIdeal Cert.ReferenceIdeal.Gen

/-! ## The two matrix products read at an index -/

theorem lhs_dot_S5x512_S512x32_S5x32_1_0_0_1_n_n_0 (j : S5x32.Idx) (k : dot_S5x512_S512x32_S5x32_1_0_0_1_n_n.contr.Idx) :
    (dot_S5x512_S512x32_S5x32_1_0_0_1_n_n.lhsIdx j k 0).val = (j 0).val := rfl
theorem lhs_dot_S5x512_S512x32_S5x32_1_0_0_1_n_n_1 (j : S5x32.Idx) (k : dot_S5x512_S512x32_S5x32_1_0_0_1_n_n.contr.Idx) :
    (dot_S5x512_S512x32_S5x32_1_0_0_1_n_n.lhsIdx j k 1).val = (k ⟨0, by decide⟩).val :=
  dot_S5x512_S512x32_S5x32_1_0_0_1_n_n.lhsIdx_val_of_single rfl j k
theorem rhs_dot_S5x512_S512x32_S5x32_1_0_0_1_n_n_0 (j : S5x32.Idx) (k : dot_S5x512_S512x32_S5x32_1_0_0_1_n_n.contr.Idx) :
    (dot_S5x512_S512x32_S5x32_1_0_0_1_n_n.rhsIdx j k 0).val = (k ⟨0, by decide⟩).val :=
  dot_S5x512_S512x32_S5x32_1_0_0_1_n_n.rhsIdx_val_of_single rfl j k
theorem rhs_dot_S5x512_S512x32_S5x32_1_0_0_1_n_n_1 (j : S5x32.Idx) (k : dot_S5x512_S512x32_S5x32_1_0_0_1_n_n.contr.Idx) :
    (dot_S5x512_S512x32_S5x32_1_0_0_1_n_n.rhsIdx j k 1).val = (j 1).val := rfl

/-- The first product: row `b` of the pooled block against column `j` of the first weight. -/
theorem mm1_apply (l : FVec Ideal S5x512 .f32) (r : FVec Ideal S512x32 .f32) (b : Fin 5) (j : Fin 32) :
    matmul (F := Ideal) dot_S5x512_S512x32_S5x32_1_0_0_1_n_n none l r (constant S5x32 .f32 0x00000000#32) (ix2 b j)
      = ∑ c : Fin 512, l (ix2 b c) * r (ix2 c j) := by
  refine (Ideal.matmul_constant_zero_apply dot_S5x512_S512x32_S5x32_1_0_0_1_n_n none l r (ix2 b j)).trans ?_
  rw [← Equiv.sum_comp (contrEquiv1 dot_S5x512_S512x32_S5x32_1_0_0_1_n_n 512 rfl rfl).symm]
  refine Finset.sum_congr rfl fun c _ => ?_
  have hk := contrEquiv1_symm_val dot_S5x512_S512x32_S5x32_1_0_0_1_n_n 512 rfl rfl c
  have hl : dot_S5x512_S512x32_S5x32_1_0_0_1_n_n.lhsIdx (ix2 b j)
      ((contrEquiv1 dot_S5x512_S512x32_S5x32_1_0_0_1_n_n 512 rfl rfl).symm c) = ix2 b c := by
    funext a
    match a with
    | ⟨0, _⟩ => exact Fin.ext (lhs_dot_S5x512_S512x32_S5x32_1_0_0_1_n_n_0 _ _)
    | ⟨1, _⟩ => exact Fin.ext ((lhs_dot_S5x512_S512x32_S5x32_1_0_0_1_n_n_1 _ _).trans hk)
  have hr : dot_S5x512_S512x32_S5x32_1_0_0_1_n_n.rhsIdx (ix2 b j)
      ((contrEquiv1 dot_S5x512_S512x32_S5x32_1_0_0_1_n_n 512 rfl rfl).symm c) = ix2 c j := by
    funext a
    match a with
    | ⟨0, _⟩ => exact Fin.ext ((rhs_dot_S5x512_S512x32_S5x32_1_0_0_1_n_n_0 _ _).trans hk)
    | ⟨1, _⟩ => exact Fin.ext (rhs_dot_S5x512_S512x32_S5x32_1_0_0_1_n_n_1 _ _)
  rw [hl, hr]

theorem lhs_dot_S5x32_S32x512_S5x512_1_0_0_1_n_n_0 (j : S5x512.Idx) (k : dot_S5x32_S32x512_S5x512_1_0_0_1_n_n.contr.Idx) :
    (dot_S5x32_S32x512_S5x512_1_0_0_1_n_n.lhsIdx j k 0).val = (j 0).val := rfl
theorem lhs_dot_S5x32_S32x512_S5x512_1_0_0_1_n_n_1 (j : S5x512.Idx) (k : dot_S5x32_S32x512_S5x512_1_0_0_1_n_n.contr.Idx) :
    (dot_S5x32_S32x512_S5x512_1_0_0_1_n_n.lhsIdx j k 1).val = (k ⟨0, by decide⟩).val :=
  dot_S5x32_S32x512_S5x512_1_0_0_1_n_n.lhsIdx_val_of_single rfl j k
theorem rhs_dot_S5x32_S32x512_S5x512_1_0_0_1_n_n_0 (j : S5x512.Idx) (k : dot_S5x32_S32x512_S5x512_1_0_0_1_n_n.contr.Idx) :
    (dot_S5x32_S32x512_S5x512_1_0_0_1_n_n.rhsIdx j k 0).val = (k ⟨0, by decide⟩).val :=
  dot_S5x32_S32x512_S5x512_1_0_0_1_n_n.rhsIdx_val_of_single rfl j k
theorem rhs_dot_S5x32_S32x512_S5x512_1_0_0_1_n_n_1 (j : S5x512.Idx) (k : dot_S5x32_S32x512_S5x512_1_0_0_1_n_n.contr.Idx) :
    (dot_S5x32_S32x512_S5x512_1_0_0_1_n_n.rhsIdx j k 1).val = (j 1).val := rfl

/-- The second product: row `b` of the hidden block against column `c` of the second weight. -/
theorem mm2_apply (l : FVec Ideal S5x32 .f32) (r : FVec Ideal S32x512 .f32) (b : Fin 5) (c : Fin 512) :
    matmul (F := Ideal) dot_S5x32_S32x512_S5x512_1_0_0_1_n_n none l r (constant S5x512 .f32 0x00000000#32) (ix2 b c)
      = ∑ j : Fin 32, l (ix2 b j) * r (ix2 j c) := by
  refine (Ideal.matmul_constant_zero_apply dot_S5x32_S32x512_S5x512_1_0_0_1_n_n none l r (ix2 b c)).trans ?_
  rw [← Equiv.sum_comp (contrEquiv1 dot_S5x32_S32x512_S5x512_1_0_0_1_n_n 32 rfl rfl).symm]
  refine Finset.sum_congr rfl fun j _ => ?_
  have hk := contrEquiv1_symm_val dot_S5x32_S32x512_S5x512_1_0_0_1_n_n 32 rfl rfl j
  have hl : dot_S5x32_S32x512_S5x512_1_0_0_1_n_n.lhsIdx (ix2 b c)
      ((contrEquiv1 dot_S5x32_S32x512_S5x512_1_0_0_1_n_n 32 rfl rfl).symm j) = ix2 b j := by
    funext a
    match a with
    | ⟨0, _⟩ => exact Fin.ext (lhs_dot_S5x32_S32x512_S5x512_1_0_0_1_n_n_0 _ _)
    | ⟨1, _⟩ => exact Fin.ext ((lhs_dot_S5x32_S32x512_S5x512_1_0_0_1_n_n_1 _ _).trans hk)
  have hr : dot_S5x32_S32x512_S5x512_1_0_0_1_n_n.rhsIdx (ix2 b c)
      ((contrEquiv1 dot_S5x32_S32x512_S5x512_1_0_0_1_n_n 32 rfl rfl).symm j) = ix2 j c := by
    funext a
    match a with
    | ⟨0, _⟩ => exact Fin.ext ((rhs_dot_S5x32_S32x512_S5x512_1_0_0_1_n_n_0 _ _).trans hk)
    | ⟨1, _⟩ => exact Fin.ext (rhs_dot_S5x32_S32x512_S5x512_1_0_0_1_n_n_1 _ _)
  rw [hl, hr]

/-! ## The spatial sum and the gate's column broadcast read at an index -/

/-- The sum over the last axis of a [5, 512, 784] block at (b, c) is the sum of the block's row (b, c). -/
theorem sum_apply (v : FVec Ideal S5x512x784 .f32) (h : S5x512x784.Reduces [2] S5x512) (hφ : FKind.Formats .f32)
    (hacc : (0x00000000#32 : BitVec 32) = FKind.add.neutral .f32 hφ) (b : Fin 5) (c : Fin 512) :
    multiReduction (F := Ideal) .add [2] S5x512 v 0x00000000#32 h hφ hacc (ix2 b c) = ∑ s : Fin 784, v (ix3 b c s) := by
  refine (Ideal.multiReduction_add_single v _ h hφ hacc (ix2 b c)).trans ?_
  refine Finset.sum_congr rfl fun s _ => congrArg v ?_
  funext a
  match a with
  | ⟨0, _⟩ => exact Fin.ext rfl
  | ⟨1, _⟩ => exact Fin.ext rfl
  | ⟨2, _⟩ => exact Fin.ext rfl

/-- A [5, 512] block viewed as a [5, 512, 1] column and broadcast along the last axis reads (b, c) at (b, c, k). -/
theorem col_apply {α : Type} (v : S5x512.Idx → α) (h1 : S5x512.ShapeCasts S5x512x1) (h2 : S5x512x1.Broadcasts S5x512x784)
    (b : Fin 5) (c : Fin 512) (k : Fin 784) :
    broadcastTo S5x512x784 (shapeCast S5x512x1 v h1) h2 (ix3 b c k) = v (ix2 b c) := by
  refine (broadcastTo_apply (shapeCast S5x512x1 v h1) h2 (ix3 b c k) (ix3 b c (0 : Fin 1)) fun a => ?_).trans ?_
  · match a with
    | ⟨0, _⟩ => rfl
    | ⟨1, _⟩ => rfl
    | ⟨2, _⟩ => rfl
  · refine shapeCast_apply v h1 (ix3 b c (0 : Fin 1)) (ix2 b c) ?_
    rw [Shape.rowMajor_val_two, Shape.rowMajor_val_three]
    show b.val * 512 + c.val = (b.val * 512 + c.val) * 1 + 0
    omega

/-- The stored value at (b, c, k) of the block. -/
theorem pay_apply (X0 : Vec Ideal S5x512x784 .f32) (x1 : Vec Ideal S512x32 .f32) (x2 : Vec Ideal S32x512 .f32)
    (X0' : Vec Ideal S5x512x784 .f32) (b : Fin 5) (c : Fin 512) (k : Fin 784) :
    k0_pay1 (F := Ideal) X0 x1 x2 X0' (ix3 b c k)
      = X0' (ix3 b c k) * SeGate.gate (σ := Fin 784) (fun c' s => X0 (ix3 b c' s))
          (fun c' j => x1 (ix2 c' j)) (fun j c'' => x2 (ix2 j c'')) c := by
  unfold k0_pay1 SeGate.gate
  -- the outer product: the second load's entry times the broadcast gate column
  refine (mulf_apply _ _ _).trans ?_
  refine congrArg₂ (· * ·) (congrFun (shapeCast_self X0' _) _) ?_
  refine (col_apply _ _ _ b c k).trans ?_
  -- the logistic function of the second product
  refine congrArg Ideal.logistic ?_
  refine (mm2_apply _ _ b c).trans ?_
  refine Finset.sum_congr rfl fun j _ => congrArg₂ (· * ·) ?_ (congrFun (shapeCast_self x2 _) _)
  -- the clamp at zero of the first product
  refine (maximumf_apply _ _ _).trans ?_
  refine congrArg₂ max ?_ rfl
  refine (mm1_apply _ _ b j).trans ?_
  refine Finset.sum_congr rfl fun c' _ => congrArg₂ (· * ·) ?_ (congrFun (shapeCast_self x1 _) _)
  -- the pooled value: the spatial sum times the shared literal
  refine (mulf_apply _ _ _).trans ?_
  refine congrArg₂ (· * ·) ?_ rfl
  refine (sum_apply _ _ _ _ b c').trans ?_
  exact Finset.sum_congr rfl fun s _ => congrFun (shapeCast_self X0 _) _

end Cert.ReferenceIdeal.Hand

end
-- ==== Proof.RStored.lean ====
/-
  What the reference's body stores into the result's staging buffer, as a function of what its three input buffers hold,
  and that on the rows inside the array this is the block of `outFlat`, whatever the input's buffer holds past the
  array's end: the value at batch row `b` of the block reads only row `b` of the loaded block, and a row inside the array
  was moved whole by the fetch.
-/
import proofs.«179622_g2000605780834191_pallasbulk_681_3_alg».proof.Proof.RDats
import proofs.«179622_g2000605780834191_pallasbulk_681_3_alg».proof.Proof.RPayload
import proofs.«179622_g2000605780834191_pallasbulk_681_3_alg».proof.Proof.Gen.ReferenceIdeal.Frame
import Idealize.ShloMosaic.Lib.Pipeline.FrameBody
import Idealize.ShloMosaic.Lib.Pipeline.Value

noncomputable section

namespace Cert.ReferenceIdeal.Hand

open Idealize.ShloMosaic Idealize.ShloMosaic.TcCoe Idealize.ShloMosaic.ValueIdx
open Cert.ReferenceIdeal Cert.ReferenceIdeal.Gen
open Idealize.SL Idealize.SL.RA Idealize.SL.BI Idealize.SL.Sem
open Idealize.ShloMosaic.Pipeline (Dat Cfg Window)

variable (m : (ℓ : Loc nD τ sig) → Buf (Elt Ideal) ℓ)

/-- The body's accesses: each the whole of its buffer. -/
abbrev rX : Rect S5x512x784 := Rect.unit (s := S5x512x784) ![0, 0, 0] S5x512x784.size Facts₀.inb_S5x512x784_S5x512x784_0_0_0
abbrev rA : Rect S512x32 := Rect.unit (s := S512x32) ![0, 0] S512x32.size Facts₀.inb_S512x32_S512x32_0_0
abbrev rB : Rect S32x512 := Rect.unit (s := S32x512) ![0, 0] S32x512.size Facts₀.inb_S32x512_S32x512_0_0

/-- The result's staging buffer after the body, from the three input buffers' contents: its one store, of the whole
    buffer (the input's buffer is loaded twice, for the sum and for the product). -/
def stored (X0 : Vec Ideal S5x512x784 .f32) (x1 : Vec Ideal S512x32 .f32) (x2 : Vec Ideal S32x512 .f32) : Vec Ideal S5x512x784 .f32 :=
  View.canon [⟨rX, k0_pay1 (F := Ideal) (View.ld X0 rX) (View.ld x1 rA) (View.ld x2 rB) (View.ld X0 rX)⟩]

/-- A zero offset spelt as a literal vector is the zero function. -/
theorem hz3 : (![0, 0, 0] : Fin 3 → Nat) = fun _ => 0 := funext fun a => by fin_cases a <;> rfl
theorem hz2 : (![0, 0] : Fin 2 → Nat) = fun _ => 0 := funext fun a => by fin_cases a <;> rfl

/-- The stored value at (b, c, k): the input's buffer there times the gate of its batch row `b`. -/
theorem stored_apply (X0 : Vec Ideal S5x512x784 .f32) (x1 : Vec Ideal S512x32 .f32) (x2 : Vec Ideal S32x512 .f32)
    (b : Fin 5) (cc : Fin 512) (k : Fin 784) :
    stored X0 x1 x2 (ix3 b cc k)
      = X0 (ix3 b cc k) * SeGate.gate (σ := Fin 784) (fun c' s => X0 (ix3 b c' s))
          (fun c' j => x1 (ix2 c' j)) (fun j c'' => x2 (ix2 j c'')) cc := by
  unfold stored
  rw [View.canon_unit_zero hz3]
  simp only [View.ld_unit_zero (S := S5x512x784) hz3, View.ld_unit_zero (S := S512x32) hz2, View.ld_unit_zero (S := S32x512) hz2]
  exact pay_apply X0 x1 x2 X0 b cc k

/-- If row `b` of the input's buffer is row `r` of the array `X`, and the weights' buffers hold `A` and `B`, the stored
    value at (b, c, k) is `gflat X A B` at (r, c, k): nothing else of the buffer is read. -/
theorem stored_eq_gflat (X0 : Vec Ideal S5x512x784 .f32) (x1 : Vec Ideal S512x32 .f32) (x2 : Vec Ideal S32x512 .f32)
    (X : S64x512x784.Idx → EReal) (A : S512x32.Idx → EReal) (B : S32x512.Idx → EReal)
    (r : Fin 64) (b : Fin 5) (cc : Fin 512) (k : Fin 784)
    (hX : ∀ c' s, X0 (ix3 b c' s) = X (ix3 r c' s)) (hA : ∀ c' j, x1 (ix2 c' j) = A (ix2 c' j))
    (hB : ∀ j c'', x2 (ix2 j c'') = B (ix2 j c'')) :
    stored X0 x1 x2 (ix3 b cc k) = gflat X A B (ix3 r cc k) := by
  rw [stored_apply]
  unfold gflat
  simp only [hX, hA, hB]

/-- The windows' index maps and cuts, decided once over the grid: windows 0 and 3 walk the batch axis together, the
    point's number their block index; the other axes are whole; the weights' windows are their whole arrays. -/
theorem idx_facts : ∀ t : Fin cfg0.N,
    win0_0.index t (0 : Fin 3) = t.val ∧ win0_0.index t (1 : Fin 3) = 0 ∧ win0_0.index t (2 : Fin 3) = 0
    ∧ win0_3.index t (0 : Fin 3) = t.val ∧ win0_3.index t (1 : Fin 3) = 0 ∧ win0_3.index t (2 : Fin 3) = 0
    ∧ win0_1.index t (0 : Fin 2) = 0 ∧ win0_1.index t (1 : Fin 2) = 0
    ∧ win0_2.index t (0 : Fin 2) = 0 ∧ win0_2.index t (1 : Fin 2) = 0
    ∧ win0_0.xsize (grid0.coords t) (0 : Fin 3) = win0_3.xsize (grid0.coords t) (0 : Fin 3)
    ∧ win0_0.xsize (grid0.coords t) (1 : Fin 3) = 512 ∧ win0_0.xsize (grid0.coords t) (2 : Fin 3) = 784
    ∧ t.val * 5 + win0_3.xsize (grid0.coords t) (0 : Fin 3) ≤ 64 :=
  (by decide +kernel : ∀ t : Fin grid0.N, _)

/-- On the rows the write-back moves, what the body stores at point `t` is the block of `outFlat` there, whatever the
    input's staging buffer held (`d`) on the rows its fetch did not move. -/
theorem stored_cut (c : Dev nD) (t : Fin cfg0.N) (d : (cfg0.win 0).block.Idx → Elt Ideal (cfg0.win 0).elt) :
    (cfg0.win 3).cut (cfg0.grid.coords t)
        (stored ((cfg0.win 0).fill (cfg0.grid.coords t) d (iblk m c 0 t)) (iblk m c 1 t) (iblk m c 2 t))
      = outBlk m c t := by
  obtain ⟨i00, i01, i02, i30, i31, i32, i10, i11, i20, i21, hx0, hx1, hx2, hle⟩ := idx_facts t
  funext y
  have hy0 : (y 0).val < win0_3.xsize (grid0.coords t) (0 : Fin 3) := (y 0).isLt
  have hb5 : (y 0).val < 5 := Nat.lt_of_lt_of_le hy0 (win0_3.xsize_le (grid0.coords t) 0)
  have hc : (y 1).val < 512 := Nat.lt_of_lt_of_le (y 1).isLt (win0_3.xsize_le (grid0.coords t) 1)
  have hk : (y 2).val < 784 := Nat.lt_of_lt_of_le (y 2).isLt (win0_3.xsize_le (grid0.coords t) 2)
  have hr : t.val * 5 + (y 0).val < 64 := by omega
  -- the index of the block, coordinate by coordinate
  have hj : (cfg0.win 3).xinj (cfg0.grid.coords t) y = ix3 (⟨(y 0).val, hb5⟩ : Fin 5) (⟨(y 1).val, hc⟩ : Fin 512) (⟨(y 2).val, hk⟩ : Fin 784) := by
    funext a; apply Fin.ext
    match a with
    | ⟨0, _⟩ => rfl
    | ⟨1, _⟩ => rfl
    | ⟨2, _⟩ => rfl
  show stored _ _ _ ((cfg0.win 3).xinj (cfg0.grid.coords t) y) = outFlat m c (((cfg0.win 3).blk t).view.emb y)
  rw [hj]
  have he : ((cfg0.win 3).blk t).view.emb y = ix3 (⟨t.val * 5 + (y 0).val, hr⟩ : Fin 64) (⟨(y 1).val, hc⟩ : Fin 512) (⟨(y 2).val, hk⟩ : Fin 784) := by
    funext a; apply Fin.ext
    match a with
    | ⟨0, _⟩ => show win0_3.index t (0 : Fin 3) * 5 + 1 * (y 0).val = t.val * 5 + (y 0).val; omega
    | ⟨1, _⟩ => show win0_3.index t (1 : Fin 3) * 512 + 1 * (y 1).val = (y 1).val; omega
    | ⟨2, _⟩ => show win0_3.index t (2 : Fin 3) * 784 + 1 * (y 2).val = (y 2).val; omega
  rw [he]
  unfold outFlat
  refine stored_eq_gflat _ _ _ _ _ _ _ _ _ _ (fun c' s => ?_) (fun c' j => ?_) (fun j c'' => ?_)
  · -- a row inside the array was moved whole by the fetch: the buffer holds the array's row there
    have hmv : (cfg0.win 0).moved (cfg0.grid.coords t) (ix3 (⟨(y 0).val, hb5⟩ : Fin 5) c' s) = true := by
      rw [Window.moved_iff]
      intro a
      match a with
      | ⟨0, _⟩ => show (y 0).val < win0_0.xsize (grid0.coords t) (0 : Fin 3); omega
      | ⟨1, _⟩ => show c'.val < win0_0.xsize (grid0.coords t) (1 : Fin 3); have := c'.isLt; omega
      | ⟨2, _⟩ => show s.val < win0_0.xsize (grid0.coords t) (2 : Fin 3); have := s.isLt; omega
    unfold Window.fill
    rw [dif_pos hmv]
    show V m c main_v2 (((cfg0.win 0).blk t).view.emb _) = V m c main_v2 _
    refine congrArg (V m c main_v2) ?_
    funext a; apply Fin.ext
    match a with
    | ⟨0, _⟩ => show win0_0.index t (0 : Fin 3) * 5 + 1 * (y 0).val = t.val * 5 + (y 0).val; omega
    | ⟨1, _⟩ => show win0_0.index t (1 : Fin 3) * 512 + 1 * c'.val = c'.val; omega
    | ⟨2, _⟩ => show win0_0.index t (2 : Fin 3) * 784 + 1 * s.val = s.val; omega
  · show V m c main_v0 (((cfg0.win 1).blk t).view.emb (ix2 c' j)) = V m c main_v0 (ix2 c' j)
    refine congrArg (V m c main_v0) ?_
    funext a; apply Fin.ext
    match a with
    | ⟨0, _⟩ => show win0_1.index t (0 : Fin 2) * 512 + 1 * c'.val = c'.val; omega
    | ⟨1, _⟩ => show win0_1.index t (1 : Fin 2) * 32 + 1 * j.val = j.val; omega
  · show V m c main_v1 (((cfg0.win 2).blk t).view.emb (ix2 j c'')) = V m c main_v1 (ix2 j c'')
    refine congrArg (V m c main_v1) ?_
    funext a; apply Fin.ext
    match a with
    | ⟨0, _⟩ => show win0_2.index t (0 : Fin 2) * 32 + 1 * j.val = j.val; omega
    | ⟨1, _⟩ => show win0_2.index t (1 : Fin 2) * 512 + 1 * c''.val = c''.val; omega

end Cert.ReferenceIdeal.Hand

end
-- ==== Proof.RFrame.lean ====
/-
  The reference's frame run at the ideal values: the body's triple on whole staging buffers, the body obligation stated on
  the rows inside the array (the two windows over the batch axis overhang the array at the last point), and the run of
  @main around the region.
-/
import proofs.«179622_g2000605780834191_pallasbulk_681_3_alg».proof.Proof.RDats
import proofs.«179622_g2000605780834191_pallasbulk_681_3_alg».proof.Proof.RStored
import proofs.«179622_g2000605780834191_pallasbulk_681_3_alg».proof.Proof.Gen.ReferenceIdeal.Frame
import proofs.«179622_g2000605780834191_pallasbulk_681_3_alg».proof.Proof.Gen.ReferenceIdeal.Skeleton
import Idealize.ShloMosaic.Lib.Pipeline.FrameBody
import Idealize.ShloMosaic.Lib.Pipeline.FrameSuffix
import Idealize.ShloMosaic.Lib.Tactic

noncomputable section

namespace Cert.ReferenceIdeal.Hand

open Idealize.ShloMosaic Idealize.ShloMosaic.TcCoe Idealize.ShloMosaic.Tactic Idealize.ShloMosaic.ValueIdx
open Cert.ReferenceIdeal Cert.ReferenceIdeal.Gen
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Ideal) ℕ (UR sig nD τ) ℕ

variable (m : (ℓ : Loc nD τ sig) → Buf (Elt Ideal) ℓ) (ρ : Dev nD → PrngReg)

/-! ## The body's triple -/

/-- The body's one store is of the whole buffer: it covers it. -/
theorem cover_stored (p0 : Vec Ideal S5x512x784 .f32) (y : S5x512x784.Idx) :
    ∃ pc ∈ ([⟨rX, p0⟩] : List (View.Piece (Elt Ideal) S5x512x784 .f32)), y ∈ pc.1.set :=
  ⟨_, List.mem_singleton_self _, View.mem_set_unit_zero (funext fun a => by fin_cases a <;> rfl) Facts₀.inb_S5x512x784_S5x512x784_0_0_0 y⟩

set_option maxHeartbeats 1000000 in
/-- The body on whole staging memrefs, the three inputs' at read contents `X0`, `x1`, `x2` and the result's at anything,
    runs to the continuation holding the inputs' as they were and the result's at `stored X0 x1 x2`: four whole loads
    (the input's buffer twice), a dead load of the result's buffer, one whole store. -/
theorem sound_kernel (c : Dev nD) (E : Set ℕ) (i : grid0.Coords) (arg1 : Memref sig .tc .vmem S5x512x784 .f32) (harg1 : arg1.IsWhole)
    (arg2 : Memref sig .tc .vmem S512x32 .f32) (harg2 : arg2.IsWhole) (arg3 : Memref sig .tc .vmem S32x512 .f32) (harg3 : arg3.IsWhole)
    (arg4 : Memref sig .tc .vmem S5x512x784 .f32) (harg4 : arg4.IsWhole)
    (X0 : Vec Ideal S5x512x784 .f32) (x1 : Vec Ideal S512x32 .f32) (x2 : Vec Ideal S32x512 .f32) (K : PUnit → sProp 𝕄) :
    iprop(owns (c : Thread nD τ) arg1 fullShare X0 ∗ owns (c : Thread nD τ) arg2 fullShare x1 ∗ owns (c : Thread nD τ) arg3 fullShare x2
        ∗ (∃ d, owns (c : Thread nD τ) arg4 fullShare d)
        ∗ (iprop(owns (c : Thread nD τ) arg1 fullShare X0 ∗ owns (c : Thread nD τ) arg2 fullShare x1 ∗ owns (c : Thread nD τ) arg3 fullShare x2
            ∗ owns (c : Thread nD τ) arg4 fullShare (stored X0 x1 x2)) -∗ K ⟨⟩))
      ⊢ wp frame (wpE (defs₀ (F := Ideal)) Variants.none c none) E (cc0__se_kernel_single i arg1 harg1 arg2 harg2 arg3 harg3 arg4 harg4) K := by
  simp only [cc0__se_kernel_single_eq_skeleton]; unfold cc0__se_kernel_single_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover_stored _)

/-! ## What the body finds in each window's buffer -/

/-- The input's buffer, fetched at every point: the array's block there on the rows inside the array, `d` past them. -/
theorem before0_0 (c : Dev nD) (t : Fin cfg0.N) (d) :
    (dats m 0 c).before 0 t d = (cfg0.win 0).fill (cfg0.grid.coords t) d (iblk m c 0 t) :=
  ((dats m 0 c).before_fetched 0 t (fetch0_0 t) d).trans (by unfold Dat.fetched Dat.blockOf iblk; rw [A_eq])

/-- The two weights' buffers hold their blocks at every point, fetched there or not. -/
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d

/-- The result's buffer is written back at every point: at each point the body finds it at contents nothing names. -/
theorem before0_3 (c : Dev nD) (t : Fin cfg0.N) (d) : (dats m 0 c).before 3 t d = d :=
  (dats m 0 c).before_out_reset 3 rfl t
    (by
      by_cases h0 : t.val = 0
      · exact .inl h0
      · exact .inr ⟨h0, flush0_3 _⟩) d

/-! ## The body obligation, at a generic point -/

/-- What the body is called with at point `t` (the library's precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d)))

/-- and what it returns: the two windows over the batch axis stated on the rows their transfers move, at anything past
    them; the two weights' exactly. -/
def bodyPost (c : Dev nD) (t : Fin cfg0.N) : sProp 𝕄 :=
  iprop((dats m 0 c).Φ t.succ ∗ (dats m 0 c).owesAt () t.succ
    ∗ (∃ d, owns (c : Thread nD τ) (st0_0 t) fullShare
        ((cfg0.win 0).fill (cfg0.grid.coords t) d ((cfg0.win 0).cut (cfg0.grid.coords t) ((dats m 0 c).after 0 t))))
    ∗ owns (c : Thread nD τ) (st0_1 t) fullShare ((dats m 0 c).after 1 t)
    ∗ owns (c : Thread nD τ) (st0_2 t) fullShare ((dats m 0 c).after 2 t)
    ∗ (∃ d, owns (c : Thread nD τ) (st0_3 t) fullShare
        ((cfg0.win 3).fill (cfg0.grid.coords t) d ((cfg0.win 3).cut (cfg0.grid.coords t) ((dats m 0 c).after 3 t)))))

/-- The body at any point. The input's buffer arrives at its block filled out past the array's end with some `d0`, the
    weights' at their blocks, the result's at anything; the body leaves the first three as they were and the result's at
    `stored` of them. On the rows the transfers move that is the input's block again (filled out with the same `d0`) and
    the block of `outFlat` (filled out with `stored` itself: `stored_cut`, whatever `d0` was). -/
theorem sound_body (c : Dev nD) (t : Fin cfg0.N) :
    bodyPre m c t ⊢ wp frame (wpE (defs₀ (F := Ideal)) Variants.none c none) Set.univ (bodyAt0 t) (fun _ => bodyPost m c t) := by
  unfold bodyPre bodyPost bodyAt0
  simp only [before0_0, before0_1, before0_2, before0_3]
  rw [show (dats m 0 c).Φ t.succ = (dats m 0 c).Φ t.castSucc from rfl,
    show (dats m 0 c).owesAt () t.succ = (dats m 0 c).owesAt () t.castSucc from rfl,
    after0_1, after0_2,
    show (cfg0.win 0).cut (cfg0.grid.coords t) ((dats m 0 c).after 0 t) = iblk m c 0 t from by
      rw [after0_0]; exact (cfg0.win 0).cut_fill _ _ _,
    show (cfg0.win 3).cut (cfg0.grid.coords t) ((dats m 0 c).after 3 t) = outBlk m c t from flushed_3 m c t]
  iintro ⟨HΦ, Ho, ⟨%d0, H0⟩, ⟨%d1, H1⟩, ⟨%d2, H2⟩, ⟨%d3, H3⟩⟩
  have h3 : (cfg0.win 3).fill (cfg0.grid.coords t)
        (stored ((cfg0.win 0).fill (cfg0.grid.coords t) d0 (iblk m c 0 t)) (iblk m c 1 t) (iblk m c 2 t)) (outBlk m c t)
      = stored ((cfg0.win 0).fill (cfg0.grid.coords t) d0 (iblk m c 0 t)) (iblk m c 1 t) (iblk m c 2 t) := by
    rw [← stored_cut m c t d0]; exact (cfg0.win 3).fill_cut _ _
  iapply (sound_kernel c Set.univ (grid0.coords t) _ _ _ _ _ _ _ _
    ((cfg0.win 0).fill (cfg0.grid.coords t) d0 (iblk m c 0 t)) (iblk m c 1 t) (iblk m c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexists d0; iexact H0
  isplitl [H1]; · iexact H1
  isplitl [H2]; · iexact H2
  iexists (stored ((cfg0.win 0).fill (cfg0.grid.coords t) d0 (iblk m c 0 t)) (iblk m c 1 t) (iblk m c 2 t))
  rw [h3]; iexact H3

/-- The library's body obligation, in the form that states a window over the batch axis on the rows inside the array. -/
theorem body_obligation (c : Dev nD) : BodyObligationLoose (dats m 0 c) (defs₀ (F := Ideal)) Variants.none () Set.univ := fun t => by
  rw [bigSep_W0, bigSep_W0]
  exact sound_body m c t

/-! ## The run -/

set_option backward.isDefEq.respectTransparency.types false in
/-- Every weakly fair execution of @main terminates, each array of the pipeline ends at what the proof data computes
    and every other unscoped buffer as the lines after the region leave it. -/
theorem run_main : θ_run defs (onTc (τ := τ) (main (F := Ideal))) (s₀ m ρ)
    (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => body_obligation m c) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

end Cert.ReferenceIdeal.Hand

end
-- ==== Proof.RRun.lean ====
/-
  The reference's run with its result named, at the ideal values: the flattened input is walked in thirteen blocks of five
  batch rows, the last cut at the array's end; each point writes the rows of its block inside the array, those rows
  together are all sixty-four, and the reshape after the region restores the image axes: the result is `SeGate.out` of
  the three arguments, the spatial sum over 784 flattened positions renamed as the sum over 28 × 28 pairs.
-/
import proofs.«179622_g2000605780834191_pallasbulk_681_3_alg».proof.Proof.RFrame
import Idealize.ShloMosaic.Lib.Pipeline.Value
import Idealize.ShloMosaic.Lib.ValueIdx
import Idealize.ShloMosaic.Lib.StableHlo.Run

noncomputable section

namespace Cert.ReferenceIdeal.Hand

open Idealize.ShloMosaic Idealize.ShloMosaic.TcCoe Idealize.ShloMosaic.ValueIdx
open Cert.ReferenceIdeal Cert.ReferenceIdeal.Gen
open Idealize.SL Idealize.SL.Sem

variable (m : (ℓ : Loc nD τ sig) → Buf (Elt Ideal) ℓ) (ρ : Dev nD → PrngReg)

/-- The result window's index maps over the thirteen points: point `t` starts at batch row `5 t` and holds the rows
    below `min 64 (5 t + 5)`; the channel and position axes are whole. -/
theorem idx3 : ∀ t : Fin cfg0.N, win0_3.index t (0 : Fin 3) = t.val
    ∧ win0_3.index t (1 : Fin 3) = 0 ∧ win0_3.index t (2 : Fin 3) = 0
    ∧ 5 * t.val + win0_3.xsize (grid0.coords t) (0 : Fin 3) = min 64 (5 * t.val + 5)
    ∧ win0_3.xsize (grid0.coords t) (1 : Fin 3) = 512
    ∧ win0_3.xsize (grid0.coords t) (2 : Fin 3) = 784 :=
  (by decide +kernel : ∀ t : Fin grid0.N, _)

/-- An index of the flattened array is in point `t`'s block iff each coordinate is among the block's coordinates
    inside the array on its axis. -/
theorem mem_blk3 (t : Fin cfg0.N) (i : S64x512x784.Idx) :
    i ∈ ((cfg0.win 3).blk t).view.set ↔ ∀ a : Fin 3, win0_3.index t a * S5x512x784.size a ≤ (i a).val
      ∧ (i a).val < win0_3.index t a * S5x512x784.size a + win0_3.xsize (grid0.coords t) a := by
  show i ∈ ((View.whole main_v3).slice (win0_3.rect t)).set ↔ _
  rw [View.set_slice_whole, Rect.mem_set_unit]
  exact Iff.rfl

/-- Every index of the flattened array lies in the block of the point its batch row divided by five names. -/
theorem cover3 (i : S64x512x784.Idx) :
    ∃ t : Fin cfg0.N, (cfg0.win 3).flush t = true ∧ i ∈ ((cfg0.win 3).blk t).view.set := by
  have hi0 : (i 0).val < 64 := (i 0).isLt
  have hi1 : (i 1).val < 512 := (i 1).isLt
  have hi2 : (i 2).val < 784 := (i 2).isLt
  have hN : grid0.N = 13 := N_0
  have hlt : (i 0).val / 5 < grid0.N := by rw [hN]; omega
  obtain ⟨e0, e1, e2, x0, x1, x2⟩ := idx3 ⟨(i 0).val / 5, hlt⟩
  refine ⟨⟨(i 0).val / 5, hlt⟩, flush0_3 _, ?_⟩
  rw [mem_blk3]
  intro a
  match a with
  | ⟨0, _⟩ =>
    show win0_3.index ⟨(i 0).val / 5, hlt⟩ (0 : Fin 3) * 5 ≤ (i 0).val
      ∧ (i 0).val < win0_3.index ⟨(i 0).val / 5, hlt⟩ (0 : Fin 3) * 5 + win0_3.xsize (grid0.coords ⟨(i 0).val / 5, hlt⟩) (0 : Fin 3)
    rw [e0]
    have x0' : 5 * ((i 0).val / 5) + win0_3.xsize (grid0.coords ⟨(i 0).val / 5, hlt⟩) (0 : Fin 3) = min 64 (5 * ((i 0).val / 5) + 5) := x0
    show (i 0).val / 5 * 5 ≤ (i 0).val ∧ (i 0).val < (i 0).val / 5 * 5 + win0_3.xsize (grid0.coords ⟨(i 0).val / 5, hlt⟩) (0 : Fin 3)
    omega
  | ⟨1, _⟩ =>
    show win0_3.index ⟨(i 0).val / 5, hlt⟩ (1 : Fin 3) * 512 ≤ (i 1).val
      ∧ (i 1).val < win0_3.index ⟨(i 0).val / 5, hlt⟩ (1 : Fin 3) * 512 + win0_3.xsize (grid0.coords ⟨(i 0).val / 5, hlt⟩) (1 : Fin 3)
    rw [e1, x1]; omega
  | ⟨2, _⟩ =>
    show win0_3.index ⟨(i 0).val / 5, hlt⟩ (2 : Fin 3) * 784 ≤ (i 2).val
      ∧ (i 2).val < win0_3.index ⟨(i 0).val / 5, hlt⟩ (2 : Fin 3) * 784 + win0_3.xsize (grid0.coords ⟨(i 0).val / 5, hlt⟩) (2 : Fin 3)
    rw [e2, x2]; omega

/-- The result array after the run is `outFlat`: every point writes its block of it, and the blocks cover the array. -/
theorem arrAt3 (c : Dev nD) : (dats m 0 c).arrAt 3 cfg0.N = outFlat m c :=
  (dats m 0 c).arrAt_eq_of_cover 3 (outFlat m c) (fun t _ => flushed_3 m c t) cover3

/-- The flattened input as the region finds it: the reshape of the first argument. -/
theorem V_v2 (c : Dev nD) : (V m c main_v2 : S64x512x784.Idx → EReal)
    = shapeCast S64x512x784 (m ((c : Thread nD τ).loc main_arg0)) Facts₀.shapeCasts_S64x512x28x28_S64x512x784 := by
  show StableHlo.after hostOps0 (fun b => m (c, b)) (Proc.devRef .tc main_v2) = _
  after_results
  rfl

/-- The first weight as the region finds it: the transpose of the second argument. -/
theorem V_v0 (c : Dev nD) : (V m c main_v0 : S512x32.Idx → EReal)
    = transpose S512x32 [1, 0] (m ((c : Thread nD τ).loc main_arg1)) Facts₀.transposes_S32x512_S512x32_1_0 := by
  show StableHlo.after hostOps0 (fun b => m (c, b)) (Proc.devRef .tc main_v0) = _
  after_results

/-- The second weight as the region finds it: the transpose of the third argument. -/
theorem V_v1 (c : Dev nD) : (V m c main_v1 : S32x512.Idx → EReal)
    = transpose S32x512 [1, 0] (m ((c : Thread nD τ).loc main_arg2)) Facts₀.transposes_S512x32_S32x512_1_0 := by
  show StableHlo.after hostOps0 (fun b => m (c, b)) (Proc.devRef .tc main_v1) = _
  after_results

/-- The flattened input at (b, ch, 28 h + w) is the image at (b, ch, h, w). -/
theorem V_v2_apply (c : Dev nD) (b : Fin 64) (ch : Fin 512) (h w : Fin 28) (k : Fin 784) (hk : k.val = 28 * h.val + w.val) :
    (V m c main_v2 : S64x512x784.Idx → EReal) (ix3 b ch k) = m ((c : Thread nD τ).loc main_arg0) (ix4 b ch h w) := by
  rw [V_v2]
  refine shapeCast_apply _ _ (ix3 b ch k) (ix4 b ch h w) ?_
  rw [Shape.rowMajor_val_four, Shape.rowMajor_val_three]
  show ((b.val * 512 + ch.val) * 28 + h.val) * 28 + w.val = (b.val * 512 + ch.val) * 784 + k.val
  omega

/-- The first weight as the region finds it at (ch, j) is the second argument at (j, ch). -/
theorem V_v0_apply (c : Dev nD) (ch : Fin 512) (j : Fin 32) :
    (V m c main_v0 : S512x32.Idx → EReal) (ix2 ch j) = m ((c : Thread nD τ).loc main_arg1) (ix2 j ch) := by
  rw [V_v0]
  refine transpose_apply _ _ _ (ix2 ch j) (ix2 j ch) fun a => ?_
  match a with
  | ⟨0, _⟩ => rfl
  | ⟨1, _⟩ => rfl

/-- The second weight as the region finds it at (j, ch) is the third argument at (ch, j). -/
theorem V_v1_apply (c : Dev nD) (j : Fin 32) (ch : Fin 512) :
    (V m c main_v1 : S32x512.Idx → EReal) (ix2 j ch) = m ((c : Thread nD τ).loc main_arg2) (ix2 ch j) := by
  rw [V_v1]
  refine transpose_apply _ _ _ (ix2 j ch) (ix2 ch j) fun a => ?_
  match a with
  | ⟨0, _⟩ => rfl
  | ⟨1, _⟩ => rfl

/-- The result after the lines that follow the region: the reshape of `outFlat` back to the image axes. -/
theorem tail_v4 (c : Dev nD) :
    (Pipeline.afterTail₀ cfgs (dats m) 0 (V0 m) [hostOps1] c main_v4 : S64x512x28x28.Idx → EReal)
      = shapeCast S64x512x28x28 (outFlat m c) Facts₀.shapeCasts_S64x512x784_S64x512x28x28 := by
  have e : Pipeline.withArrays spec0 c (V0 m c) (fun w => (dats m 0 c).arrAt w cfg0.N) (Proc.devRef .tc (Pipeline.arrRef spec0 3))
      = outFlat m c :=
    (Pipeline.withArrays_arr spec0 launch0.win.arr_inj c (V0 m c) (fun w => (dats m 0 c).arrAt w cfg0.N) 3).trans (arrAt3 m c)
  unfold Pipeline.afterTail₀
  show StableHlo.after hostOps1 _ (Proc.devRef .tc main_v4) = _
  after_results
  exact congrArg (fun x : S64x512x784.Idx → EReal => shapeCast S64x512x28x28 x Facts₀.shapeCasts_S64x512x784_S64x512x28x28) e

/-- An image position (h, w) and its place 28 h + w among the 784 flattened positions. -/
def posEquiv : Fin 28 × Fin 28 ≃ Fin 784 where
  toFun p := ⟨28 * p.1.val + p.2.val, by have h1 := p.1.isLt; have h2 := p.2.isLt; omega⟩
  invFun k := (⟨k.val / 28, by have := k.isLt; omega⟩, ⟨k.val % 28, by omega⟩)
  left_inv p := by
    obtain ⟨⟨h, hh⟩, ⟨w, hw⟩⟩ := p
    refine Prod.ext (Fin.ext ?_) (Fin.ext ?_)
    · show (28 * h + w) / 28 = h; omega
    · show (28 * h + w) % 28 = w; omega
  right_inv k := by
    apply Fin.ext
    show 28 * (k.val / 28) + k.val % 28 = k.val
    omega

/-- The reshape of `outFlat` back to the image axes is `SeGate.out` of the three arguments: entry (b, ch, h, w) is the
    flattened entry (b, ch, 28 h + w), and the spatial sum over the 784 flattened positions of a row is the sum over
    the 28 × 28 image positions. -/
theorem reshape_outFlat (c : Dev nD) :
    shapeCast S64x512x28x28 (outFlat m c) Facts₀.shapeCasts_S64x512x784_S64x512x28x28
      = SeGate.out (m ((c : Thread nD τ).loc main_arg0)) (m ((c : Thread nD τ).loc main_arg1)) (m ((c : Thread nD τ).loc main_arg2)) := by
  funext i
  obtain ⟨b, ch, h, w, rfl⟩ : ∃ (b : Fin 64) (ch : Fin 512) (h w : Fin 28), i = ix4 b ch h w := ⟨i 0, i 1, i 2, i 3, eq_ix4 i⟩
  refine (shapeCast_apply _ _ (ix4 b ch h w) (ix3 b ch (posEquiv (h, w))) ?_).trans ?_
  · rw [Shape.rowMajor_val_four, Shape.rowMajor_val_three]
    show (b.val * 512 + ch.val) * 784 + (28 * h.val + w.val) = ((b.val * 512 + ch.val) * 28 + h.val) * 28 + w.val
    omega
  · have hA : (fun (c' : Fin 512) (j : Fin 32) => (V m c main_v0 : S512x32.Idx → EReal) (ix2 c' j))
        = fun c' j => m ((c : Thread nD τ).loc main_arg1) (ix2 j c') :=
      funext fun c' => funext fun j => V_v0_apply m c c' j
    have hB : (fun (j : Fin 32) (c' : Fin 512) => (V m c main_v1 : S32x512.Idx → EReal) (ix2 j c'))
        = fun j c' => m ((c : Thread nD τ).loc main_arg2) (ix2 c' j) :=
      funext fun j => funext fun c' => V_v1_apply m c j c'
    have hg := SeGate.gate_reindex posEquiv
      (fun (c' : Fin 512) (s : Fin 28 × Fin 28) => m ((c : Thread nD τ).loc main_arg0) (ix4 b c' s.1 s.2))
      (fun (c' : Fin 512) (s : Fin 784) => (V m c main_v2 : S64x512x784.Idx → EReal) (ix3 b c' s))
      (fun c' s => V_v2_apply m c b c' s.1 s.2 (posEquiv s) rfl)
      (fun c' j => m ((c : Thread nD τ).loc main_arg1) (ix2 j c')) (fun j c' => m ((c : Thread nD τ).loc main_arg2) (ix2 c' j)) ch
    have hG := (congrArg₂ (fun (A : Fin 512 → Fin 32 → EReal) (B : Fin 32 → Fin 512 → EReal) =>
        SeGate.gate (σ := Fin 784) (fun (c' : Fin 512) (s : Fin 784) => (V m c main_v2 : S64x512x784.Idx → EReal) (ix3 b c' s)) A B ch)
      hA hB).trans hg.symm
    exact congrArg₂ (fun (a g : EReal) => a * g) (V_v2_apply m c b ch h w (posEquiv (h, w)) rfl) hG

/-- Every weakly fair execution of the reference's @main terminates with the result array at `SeGate.out` of the
    arguments and the arguments unchanged. -/
theorem run_value : θ_run defs (onTc (τ := τ) (main (F := Ideal))) ⟨m, fun _ => 0, ρ⟩
    (fun r => ∀ c : Dev Cert.ReferenceIdeal.nD,
      r.2.mem ((c.tc : Thread Cert.ReferenceIdeal.nD Cert.ReferenceIdeal.τ).loc Cert.ReferenceIdeal.main_v4)
        = SeGate.out (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))
            (m ((c.tc : Thread Cert.ReferenceIdeal.nD Cert.ReferenceIdeal.τ).loc Cert.ReferenceIdeal.main_arg2))
      ∧ r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)) :=
  (θ_run defs _ _).mono (fun _ h c =>
    ⟨((h c).2 main_v4 (Pipeline.mem_restRefs_of main_v4 (by decide) (by decide))).trans ((tail_v4 m c).trans (reshape_outFlat m c)),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c)⟩)
    (run_main m ρ)

end Cert.ReferenceIdeal.Hand

end
-- ==== Proof.lean ====
/-
  The squeeze-and-excitation gate: a kernel that keeps the channels on the last axis and walks the batch in blocks of
  four, against a reference that flattens the image and walks the batch in blocks of five.

  At the ideal values both programs compute, at (b, c, h, w), the input there times
    logistic (∑ j, max (∑ c', mean_b(c') · w1[j, c']) 0 · w2[c, j]),   mean_b(c') = (∑ over the image of x[b, c', ·, ·]) · inv,
  with the same literal `inv` and the same clamp on both sides. The kernel sums the image over its two axes, the reference
  over its 784 flattened positions: one finite sum under two names of its index set, equal because addition of extended
  reals is commutative and associative. No product is distributed over a sum and nothing is cancelled, so the finiteness
  of the inputs is never used. The reference's last block reaches one batch row past the array; that row's gate is
  computed from words nobody names, and it is neither read by another row nor written back.

  The three frames: the two kernel programs' are the generated ones; the reference's is the run of `RFrame` read at the
  arguments. The idealization rewrote nothing, so there is nothing to preserve. The two value runs (`KRun`, `RRun`) end
  with the result array at the one function `SeGate.out` of the arguments, which the two memories agree on.
-/
import proofs.«179622_g2000605780834191_pallasbulk_681_3_alg».proof.Defs
import proofs.«179622_g2000605780834191_pallasbulk_681_3_alg».proof.Proof.Gen.Kernel
import proofs.«179622_g2000605780834191_pallasbulk_681_3_alg».proof.Proof.Gen.Kernel.Frame
import proofs.«179622_g2000605780834191_pallasbulk_681_3_alg».proof.Proof.Gen.KernelIdeal
import proofs.«179622_g2000605780834191_pallasbulk_681_3_alg».proof.Proof.Gen.KernelIdeal.Frame
import proofs.«179622_g2000605780834191_pallasbulk_681_3_alg».proof.Proof.Gen.ReferenceIdeal
import proofs.«179622_g2000605780834191_pallasbulk_681_3_alg».proof.Proof.Gen.ReferenceIdeal.Frame
import proofs.«179622_g2000605780834191_pallasbulk_681_3_alg».proof.Proof.Gen.Pre_finite_inputs
import proofs.«179622_g2000605780834191_pallasbulk_681_3_alg».proof.Proof.KRun
import proofs.«179622_g2000605780834191_pallasbulk_681_3_alg».proof.Proof.RRun
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

/-- The reference's frame: its run to the library's post, read at the three arguments. -/
theorem frame_ri : Cert.frame_ReferenceIdeal := fun m ρ _ =>
  Cert.ReferenceIdeal.Gen.frame_of m ρ (Cert.ReferenceIdeal.Hand.dats m) (Cert.ReferenceIdeal.Hand.A_eq m)
    (Cert.ReferenceIdeal.Hand.run_main m ρ)

/-- Both runs end at `SeGate.out` of their own arguments, and the arguments agree. -/
theorem algebraic : Cert.algebraic_KernelIdeal_ReferenceIdeal := by
  intro m ρ m' ρ' _ hagree
  refine ⟨fun c => SeGate.out (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)),
    Cert.KernelIdeal.Hand.run_value m ρ, ?_⟩
  refine (θ_run Cert.ReferenceIdeal.defs _ _).mono (fun r h c => ⟨(h c).1.trans ?_, (h c).2⟩)
    (Cert.ReferenceIdeal.Hand.run_value m' ρ')
  rw [(hagree c).1, (hagree c).2.1, (hagree c).2.2]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
